-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S800000x2 : Shape := ⟨2, ![800000, 2]⟩
abbrev S800000x1 : Shape := ⟨2, ![800000, 1]⟩
abbrev S800000 : Shape := ⟨1, ![800000]⟩
abbrev S50000x64 : Shape := ⟨2, ![50000, 64]⟩
abbrev S193x128 : Shape := ⟨2, ![193, 128]⟩
abbrev S128 : Shape := ⟨1, ![128]⟩
abbrev S128x64 : Shape := ⟨2, ![128, 64]⟩
abbrev S64 : Shape := ⟨1, ![64]⟩
abbrev S128x32 : Shape := ⟨2, ![128, 32]⟩
abbrev S32 : Shape := ⟨1, ![32]⟩
abbrev S_ : Shape := ⟨0, ![]⟩

class Facts : Prop where
  bcast_S_S800000x1 : S_.BroadcastsInDim S800000x1 (![] : Fin 0 → Fin S800000x1.rank)
  reducesTo_S800000x1_S_d0_1 : S800000x1.ReducesTo [0, 1] S_
  h_S_ : 0 < S_.numel
  bcast_S_S800000 : S_.BroadcastsInDim S800000 (![] : Fin 0 → Fin S800000.rank)
  reducesTo_S800000_S_d0 : S800000.ReducesTo [0] S_
  bcast_S_S50000x64 : S_.BroadcastsInDim S50000x64 (![] : Fin 0 → Fin S50000x64.rank)
  reducesTo_S50000x64_S_d0_1 : S50000x64.ReducesTo [0, 1] S_
  bcast_S_S193x128 : S_.BroadcastsInDim S193x128 (![] : Fin 0 → Fin S193x128.rank)
  reducesTo_S193x128_S_d0_1 : S193x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S800000x2 : S_.BroadcastsInDim S800000x2 (![] : Fin 0 → Fin S800000x2.rank)
  reducesTo_S800000x2_S_d0_1 : S800000x2.ReducesTo [0, 1] S_

variable [Facts]

def fn_part3 {F : FTy → Type} [FloatOps F] (main_arg0 : IVec S800000x2 32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_c_20 : IVec S_ 32 := constantI S_ 32 4294917296#32
  let main_v54 : IVec S800000x2 32 := broadcastInDim S800000x2 ![] bcast_S_S800000x2 main_c_20
  let main_v55 : IVec S800000x2 1 := cmpi .sge main_arg0 main_v54
  let main_c_21 : IVec S_ 32 := constantI S_ 32 50000#32
  let main_v56 : IVec S800000x2 32 := broadcastInDim S800000x2 ![] bcast_S_S800000x2 main_c_21
  let main_v57 : IVec S800000x2 1 := cmpi .slt main_arg0 main_v56
  let main_v58 : IVec S800000x2 1 := andi main_v55 main_v57
  let main_c_22 : IVec S_ 1 := constantI S_ 1 1#1
  let main_v59 : IVec S_ 1 := (fun x v => Host.reduce IntOp.andi x v reducesTo_S800000x2_S_d0_1 h_S_) main_v58 main_c_22
  let main_v60 : IVec S_ 1 := andi main_v53 main_v59
  main_v60

def fn_part2 {F : FTy → Type} [FloatOps F] (main_arg0 : IVec S800000x2 32) (main_arg8 : FVec F S193x128 .f32) (main_arg9 : FVec F S128 .f32) (main_arg10 : FVec F S128x32 .f32) (main_arg11 : FVec F S32 .f32) (main_v33 : IVec S_ 1) : IVec S_ 1 :=
  let main_v34 : FVec F S193x128 .f32 := Host.absf main_arg8
  let main_cst_12 : FVec F S_ .f32 := constant S_ .f32 0x7F800000#32
  let main_v35 : FVec F S193x128 .f32 := broadcastInDim S193x128 ![] bcast_S_S193x128 main_cst_12
  let main_v36 : IVec S193x128 1 := cmpf .olt main_v34 main_v35
  let main_c_13 : IVec S_ 1 := constantI S_ 1 1#1
  let main_v37 : IVec S_ 1 := (fun x v => Host.reduce IntOp.andi x v reducesTo_S193x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x32 .f32 := Host.absf main_arg10
  let main_cst_16 : FVec F S_ .f32 := constant S_ .f32 0x7F800000#32
  let main_v45 : FVec F S128x32 .f32 := broadcastInDim S128x32 ![] bcast_S_S128x32 main_cst_16
  let main_v46 : IVec S128x32 1 := cmpf .olt main_v44 main_v45
  let main_c_17 : IVec S_ 1 := constantI S_ 1 1#1
  let main_v47 : IVec S_ 1 := (fun x v => Host.reduce IntOp.andi x v reducesTo_S128x32_S_d0_1 h_S_) main_v46 main_c_17
  let main_v48 : IVec S_ 1 := andi main_v43 main_v47
  let main_v49 : FVec F S32 .f32 := Host.absf main_arg11
  let main_cst_18 : FVec F S_ .f32 := constant S_ .f32 0x7F800000#32
  let main_v50 : FVec F S32 .f32 := broadcastInDim S32 ![] bcast_S_S32 main_cst_18
  fn_part3 (F := F) main_arg0 main_v48 main_v49 main_v50

def fn_part1 {F : FTy → Type} [FloatOps F] (main_arg0 : IVec S800000x2 32) (main_arg5 : FVec F S128 .f32) (main_arg6 : FVec F S128x64 .f32) (main_arg7 : FVec F S64 .f32) (main_arg8 : FVec F S193x128 .f32) (main_arg9 : FVec F S128 .f32) (main_arg10 : FVec F S128x32 .f32) (main_arg11 : FVec F S32 .f32) (main_v13 : IVec S_ 1) (main_v16 : IVec S193x128 1) : IVec S_ 1 :=
  let main_c_5 : IVec S_ 1 := constantI S_ 1 1#1
  let main_v17 : IVec S_ 1 := (fun x v => Host.reduce IntOp.andi x v reducesTo_S193x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg0 main_arg8 main_arg9 main_arg10 main_arg11 main_v33

def fn {F : FTy → Type} [FloatOps F] (main_arg0 : IVec S800000x2 32) (main_arg1 : FVec F S800000x1 .f32) (main_arg2 : FVec F S800000 .f32) (main_arg3 : FVec F S50000x64 .f32) (main_arg4 : FVec F S193x128 .f32) (main_arg5 : FVec F S128 .f32) (main_arg6 : FVec F S128x64 .f32) (main_arg7 : FVec F S64 .f32) (main_arg8 : FVec F S193x128 .f32) (main_arg9 : FVec F S128 .f32) (main_arg10 : FVec F S128x32 .f32) (main_arg11 : FVec F S32 .f32) : IVec S_ 1 :=
  let main_v0 : FVec F S800000x1 .f32 := Host.absf main_arg1
  let main_cst : FVec F S_ .f32 := constant S_ .f32 0x7F800000#32
  let main_v1 : FVec F S800000x1 .f32 := broadcastInDim S800000x1 ![] bcast_S_S800000x1 main_cst
  let main_v2 : IVec S800000x1 1 := cmpf .olt main_v0 main_v1
  let main_c : IVec S_ 1 := constantI S_ 1 1#1
  let main_v3 : IVec S_ 1 := (fun x v => Host.reduce IntOp.andi x v reducesTo_S800000x1_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S50000x64 .f32 := Host.absf main_arg3
  let main_cst_2 : FVec F S_ .f32 := constant S_ .f32 0x7F800000#32
  let main_v10 : FVec F S50000x64 .f32 := broadcastInDim S50000x64 ![] bcast_S_S50000x64 main_cst_2
  let main_v11 : IVec S50000x64 1 := cmpf .olt main_v9 main_v10
  let main_c_3 : IVec S_ 1 := constantI S_ 1 1#1
  let main_v12 : IVec S_ 1 := (fun x v => Host.reduce IntOp.andi x v reducesTo_S50000x64_S_d0_1 h_S_) main_v11 main_c_3
  let main_v13 : IVec S_ 1 := andi main_v8 main_v12
  let main_v14 : FVec F S193x128 .f32 := Host.absf main_arg4
  let main_cst_4 : FVec F S_ .f32 := constant S_ .f32 0x7F800000#32
  let main_v15 : FVec F S193x128 .f32 := broadcastInDim S193x128 ![] bcast_S_S193x128 main_cst_4
  let main_v16 : IVec S193x128 1 := cmpf .olt main_v14 main_v15
  fn_part1 (F := F) main_arg0 main_arg5 main_arg6 main_arg7 main_arg8 main_arg9 main_arg10 main_arg11 main_v13 main_v16
-- ==== Kernel.lean ====
abbrev S800000x2 : Shape := ⟨2, ![800000, 2]⟩
abbrev S800000x1 : Shape := ⟨2, ![800000, 1]⟩
abbrev S800000 : Shape := ⟨1, ![800000]⟩
abbrev S50000x64 : Shape := ⟨2, ![50000, 64]⟩
abbrev S193x128 : Shape := ⟨2, ![193, 128]⟩
abbrev S128 : Shape := ⟨1, ![128]⟩
abbrev S128x64 : Shape := ⟨2, ![128, 64]⟩
abbrev S64 : Shape := ⟨1, ![64]⟩
abbrev S128x32 : Shape := ⟨2, ![128, 32]⟩
abbrev S32 : Shape := ⟨1, ![32]⟩
abbrev S32x64 : Shape := ⟨2, ![32, 64]⟩
abbrev S_ : Shape := ⟨0, ![]⟩
abbrev S1 : Shape := ⟨1, ![1]⟩
abbrev S1x1 : Shape := ⟨2, ![1, 1]⟩
abbrev S800000x64 : Shape := ⟨2, ![800000, 64]⟩
abbrev S2000x64 : Shape := ⟨2, ![2000, 64]⟩
abbrev S2000x1 : Shape := ⟨2, ![2000, 1]⟩
abbrev S64x128 : Shape := ⟨2, ![64, 128]⟩
abbrev S1x128 : Shape := ⟨2, ![1, 128]⟩
abbrev S2000x128 : Shape := ⟨2, ![2000, 128]⟩
abbrev S1x64 : Shape := ⟨2, ![1, 64]⟩
abbrev S2000x32 : Shape := ⟨2, ![2000, 32]⟩
abbrev S1x32 : Shape := ⟨2, ![1, 32]⟩
abbrev S800000x32x2 : Shape := ⟨3, ![800000, 32, 2]⟩

abbrev nBuf : Space → Nat
  | .hbm => 68
  | .vmem => 22
  | .smem => 0
  | _ => 0

abbrev bufTy : (tb : Table) → Fin (tcTables nBuf tb) → BufTy
  | .hbm, ⟨0, _⟩ => ⟨S800000x2, .i32⟩
  | .hbm, ⟨1, _⟩ => ⟨S800000x1, .f32⟩
  | .hbm, ⟨2, _⟩ => ⟨S800000, .f32⟩
  | .hbm, ⟨3, _⟩ => ⟨S50000x64, .f32⟩
  | .hbm, ⟨4, _⟩ => ⟨S193x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S193x128, .f32⟩
  | .hbm, ⟨9, _⟩ => ⟨S128, .f32⟩
  | .hbm, ⟨10, _⟩ => ⟨S128x32, .f32⟩
  | .hbm, ⟨11, _⟩ => ⟨S32, .f32⟩
  | .hbm, ⟨12, _⟩ => ⟨S32x64, .f32⟩
  | .hbm, ⟨13, _⟩ => ⟨S32x64, .f32⟩
  | .hbm, ⟨14, _⟩ => ⟨S800000x1, .i32⟩
  | .hbm, ⟨15, _⟩ => ⟨S800000, .i32⟩
  | .hbm, ⟨16, _⟩ => ⟨S800000x1, .i32⟩
  | .hbm, ⟨17, _⟩ => ⟨S800000, .i32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S1, .i32⟩
  | .hbm, ⟨27, _⟩ => ⟨S_, .i32⟩
  | .hbm, ⟨28, _⟩ => ⟨S800000x1, .i32⟩
  | .hbm, ⟨29, _⟩ => ⟨S800000x1, .i1⟩
  | .hbm, ⟨30, _⟩ => ⟨S1x1, .i32⟩
  | .hbm, ⟨31, _⟩ => ⟨S800000x1, .i32⟩
  | .hbm, ⟨32, _⟩ => ⟨S800000x1, .i1⟩
  | .hbm, ⟨33, _⟩ => ⟨S800000x1, .i1⟩
  | .hbm, ⟨34, _⟩ => ⟨S_, .i1⟩
  | .hbm, ⟨35, _⟩ => ⟨S800000, .i1⟩
  | .hbm, ⟨36, _⟩ => ⟨S800000x64, .f32⟩
  | .hbm, ⟨37, _⟩ => ⟨S800000x64, .i1⟩
  | .hbm, ⟨38, _⟩ => ⟨S_, .f32⟩
  | .hbm, ⟨39, _⟩ => ⟨S800000x64, .f32⟩
  | .hbm, ⟨40, _⟩ => ⟨S800000x64, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S1, .i32⟩
  | .hbm, ⟨50, _⟩ => ⟨S_, .i32⟩
  | .hbm, ⟨51, _⟩ => ⟨S800000x1, .i32⟩
  | .hbm, ⟨52, _⟩ => ⟨S800000x1, .i1⟩
  | .hbm, ⟨53, _⟩ => ⟨S1x1, .i32⟩
  | .hbm, ⟨54, _⟩ => ⟨S800000x1, .i32⟩
  | .hbm, ⟨55, _⟩ => ⟨S800000x1, .i1⟩
  | .hbm, ⟨56, _⟩ => ⟨S800000x1, .i1⟩
  | .hbm, ⟨57, _⟩ => ⟨S_, .i1⟩
  | .hbm, ⟨58, _⟩ => ⟨S800000, .i1⟩
  | .hbm, ⟨59, _⟩ => ⟨S800000x64, .f32⟩
  | .hbm, ⟨60, _⟩ => ⟨S800000x64, .i1⟩
  | .hbm, ⟨61, _⟩ => ⟨S_, .f32⟩
  | .hbm, ⟨62, _⟩ => ⟨S800000x64, .f32⟩
  | .hbm, ⟨63, _⟩ => ⟨S800000x64, .f32⟩
  | .hbm, ⟨64, _⟩ => ⟨S800000x1, .f32⟩
  | .hbm, ⟨65, _⟩ => ⟨S800000x64, .f32⟩
  | .hbm, ⟨66, _⟩ => ⟨S800000x64, .f32⟩
  | .hbm, ⟨67, _⟩ => ⟨S800000x32x2, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S2000x1, .f32⟩
  | .local _ .vmem, ⟨5, _⟩ => ⟨S2000x1, .f32⟩
  | .local _ .vmem, ⟨6, _⟩ => ⟨S2000x1, .f32⟩
  | .local _ .vmem, ⟨7, _⟩ => ⟨S2000x1, .f32⟩
  | .local _ .vmem, ⟨8, _⟩ => ⟨S193x128, .f32⟩
  | .local _ .vmem, ⟨9, _⟩ => ⟨S128, .f32⟩
  | .local _ .vmem, ⟨10, _⟩ => ⟨S128x64, .f32⟩
  | .local _ .vmem, ⟨11, _⟩ => ⟨S64, .f32⟩
  | .local _ .vmem, ⟨12, _⟩ => ⟨S193x128, .f32⟩
  | .local _ .vmem, ⟨13, _⟩ => ⟨S128, .f32⟩
  | .local _ .vmem, ⟨14, _⟩ => ⟨S128x32, .f32⟩
  | .local _ .vmem, ⟨15, _⟩ => ⟨S32, .f32⟩
  | .local _ .vmem, ⟨16, _⟩ => ⟨S32x64, .f32⟩
  | .local _ .vmem, ⟨17, _⟩ => ⟨S32x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | _, _ => ⟨S800000x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_cst_0 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v4 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_call1_cst : Ref sig .tc := ⟨.hbm, 61, rfl⟩
abbrev main_call1_v15 : Ref sig .tc := ⟨.hbm, 62, rfl⟩
abbrev main_v5 : Ref sig .tc := ⟨.hbm, 63, rfl⟩
abbrev main_v6 : Ref sig .tc := ⟨.hbm, 64, rfl⟩
abbrev main_v7_0 : Ref sig .tc := ⟨.hbm, 65, rfl⟩
abbrev main_v7_1 : Ref sig .tc := ⟨.hbm, 66, rfl⟩
abbrev main_v8 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19
abbrev cc0_sem15_0 : DmaSem sig := 20
abbrev cc0_sem15_1 : DmaSem sig := 21

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S193x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S193x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S32x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S2000x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2000x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  slices_S800000x2_S800000x1_0_0 : S800000x2.Slices ![0, 0] S800000x1
  shapeCasts_S800000x1_S800000 : S800000x1.ShapeCasts S800000
  slices_S800000x2_S800000x1_0_1 : S800000x2.Slices ![0, 1] S800000x1
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  bitsLt_bf16_f32 : FTy.bits .bf16 < FTy.bits .f32
  inb_S193x128_S64x128_0_0 : ∀ a, (![0, 0] : Fin 2 → Nat) a + S64x128.size a ≤ S193x128.size a
  h_S64x128 : 0 < S64x128.numel
  inb_S193x128_S64x128_64_0 : ∀ a, (![64, 0] : Fin 2 → Nat) a + S64x128.size a ≤ S193x128.size a
  inb_S193x128_S64x128_128_0 : ∀ a, (![128, 0] : Fin 2 → Nat) a + S64x128.size a ≤ S193x128.size a
  inb_S193x128_S1x128_192_0 : ∀ a, (![192, 0] : Fin 2 → Nat) a + S1x128.size a ≤ S193x128.size a
  h_S1x128 : 0 < S1x128.numel
  broadcasts_S2000x1_S2000x128 : S2000x1.Broadcasts S2000x128
  broadcasts_S1x128_S2000x128 : S1x128.Broadcasts S2000x128
  inb_S128_S128_0 : ∀ a, (![0] : Fin 1 → Nat) a + S128.size a ≤ S128.size a
  h_S128 : 0 < S128.numel
  shapeCasts_S128_S1x128 : S128.ShapeCasts S1x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  inb_S128x32_S128x32_0_0 : ∀ a, (![0, 0] : Fin 2 → Nat) a + S128x32.size a ≤ S128x32.size a
  h_S128x32 : 0 < S128x32.numel
  inb_S32_S32_0 : ∀ a, (![0] : Fin 1 → Nat) a + S32.size a ≤ S32.size a
  h_S32 : 0 < S32.numel
  shapeCasts_S32_S1x32 : S32.ShapeCasts S1x32
  broadcasts_S1x32_S2000x32 : S1x32.Broadcasts S2000x32
  broadcasts_S2000x1_S2000x32 : S2000x1.Broadcasts S2000x32
  inb_S32x64_S32x64_0_0 : ∀ a, (![0, 0] : Fin 2 → Nat) a + S32x64.size a ≤ S32x64.size a
  h_S32x64 : 0 < S32x64.numel
  shapeCasts_S800000x64_S800000x32x2 : S800000x64.ShapeCasts S800000x32x2
  gather_S50000x64_S800000x1_S800000x64_1_0_n_n_0_1_164_wf : GatherDims.WF S50000x64 S800000x1 S800000x64 [1] [0] [] [0] [] 1 ![1, 64]
  dot_S2000x64_S64x128_S2000x128_1_0_0_1_n_n_wf : DotDims.WF S2000x64 S64x128 S2000x128 [1] [0] [0] [1] [] []
  dot_S2000x128_S128x64_S2000x64_1_0_0_1_n_n_wf : DotDims.WF S2000x128 S128x64 S2000x64 [1] [0] [0] [1] [] []
  dot_S2000x128_S128x32_S2000x32_1_0_0_1_n_n_wf : DotDims.WF S2000x128 S128x32 S2000x32 [1] [0] [0] [1] [] []
  dot_S2000x32_S32x64_S2000x64_1_0_0_1_n_n_wf : DotDims.WF S2000x32 S32x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S800000x64.size a
  hwx0_0 : ∀ i : grid0.Coords, EltTy.bits .f32 = 32 ∨ (Rect.block (s := S800000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S800000x64.size a
  hwx0_1 : ∀ i : grid0.Coords, EltTy.bits .f32 = 32 ∨ (Rect.block (s := S800000x64) S2000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S800000x1.size a
  hwx0_2 : ∀ i : grid0.Coords, EltTy.bits .f32 = 32 ∨ (Rect.block (s := S800000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S800000x1.size a
  hwx0_3 : ∀ i : grid0.Coords, EltTy.bits .f32 = 32 ∨ (Rect.block (s := S800000x1) S2000x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S193x128.size a ≤ S193x128.size a
  hwx0_4 : ∀ i : grid0.Coords, EltTy.bits .f32 = 32 ∨ (Rect.block (s := S193x128) S193x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .f32 = 32 ∨ (Rect.block (s := S128x64) S128x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S193x128.size a ≤ S193x128.size a
  hwx0_8 : ∀ i : grid0.Coords, EltTy.bits .f32 = 32 ∨ (Rect.block (s := S193x128) S193x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x32.size a ≤ S128x32.size a
  hwx0_10 : ∀ i : grid0.Coords, EltTy.bits .f32 = 32 ∨ (Rect.block (s := S128x32) S128x32.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S32.size a ≤ S32.size a
  hwx0_11 : ∀ i : grid0.Coords, EltTy.bits .f32 = 32 ∨ (Rect.block (s := S32) S32.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S32x64.size a ≤ S32x64.size a
  hwx0_12 : ∀ i : grid0.Coords, EltTy.bits .f32 = 32 ∨ (Rect.block (s := S32x64) S32x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S32x64.size a ≤ S32x64.size a
  hwx0_13 : ∀ i : grid0.Coords, EltTy.bits .f32 = 32 ∨ (Rect.block (s := S32x64) S32x64.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S2000x64.size a ≤ S800000x64.size a
  hwx0_14 : ∀ i : grid0.Coords, EltTy.bits .f32 = 32 ∨ (Rect.block (s := S800000x64) S2000x64.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S2000x64.size a ≤ S800000x64.size a
  hwx0_15 : ∀ i : grid0.Coords, EltTy.bits .f32 = 32 ∨ (Rect.block (s := S800000x64) S2000x64.size (cc0_transform_15 i) (hinb0_15 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x128_S128x32_S2000x32_1_0_0_1_n_n : DotDims S2000x128 S128x32 S2000x32 where
  lhsContracting := [1]
  rhsContracting := [0]
  lhsNonContracting := [0]
  rhsNonContracting := [1]
  lhsBatch := []
  rhsBatch := []
  wf := dot_S2000x128_S128x32_S2000x32_1_0_0_1_n_n_wf
def dot_S2000x32_S32x64_S2000x64_1_0_0_1_n_n : DotDims S2000x32 S32x64 S2000x64 where
  lhsContracting := [1]
  rhsContracting := [0]
  lhsNonContracting := [0]
  rhsNonContracting := [1]
  lhsBatch := []
  rhsBatch := []
  wf := dot_S2000x32_S32x64_S2000x64_1_0_0_1_n_n_wf

abbrev win0_0 : Pipeline.Window sig grid0 :=
  Pipeline.Window.ofSpec (Memref.whole main_v4) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S193x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S193x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S128x32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S32.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_cst) S32x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_cst_0) S32x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v7_0) S2000x64.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v7_1) S2000x64.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S800000x2 : Shape := ⟨2, ![800000, 2]⟩
abbrev S800000x1 : Shape := ⟨2, ![800000, 1]⟩
abbrev S800000 : Shape := ⟨1, ![800000]⟩
abbrev S50000x64 : Shape := ⟨2, ![50000, 64]⟩
abbrev S193x128 : Shape := ⟨2, ![193, 128]⟩
abbrev S128 : Shape := ⟨1, ![128]⟩
abbrev S128x64 : Shape := ⟨2, ![128, 64]⟩
abbrev S64 : Shape := ⟨1, ![64]⟩
abbrev S128x32 : Shape := ⟨2, ![128, 32]⟩
abbrev S32 : Shape := ⟨1, ![32]⟩
abbrev S_ : Shape := ⟨0, ![]⟩
abbrev S800000x64 : Shape := ⟨2, ![800000, 64]⟩
abbrev S800000x193 : Shape := ⟨2, ![800000, 193]⟩
abbrev S800000x128 : Shape := ⟨2, ![800000, 128]⟩
abbrev S1x128 : Shape := ⟨2, ![1, 128]⟩
abbrev S1x64 : Shape := ⟨2, ![1, 64]⟩
abbrev S800000x32 : Shape := ⟨2, ![800000, 32]⟩
abbrev S1x32 : Shape := ⟨2, ![1, 32]⟩
abbrev S800000x32x1 : Shape := ⟨3, ![800000, 32, 1]⟩
abbrev S800000x1x2 : Shape := ⟨3, ![800000, 1, 2]⟩
abbrev S800000x32x2 : Shape := ⟨3, ![800000, 32, 2]⟩

abbrev nBuf : Space → Nat
  | .hbm => 69
  | .vmem => 0
  | .smem => 0
  | _ => 0

abbrev bufTy : (tb : Table) → Fin (tcTables nBuf tb) → BufTy
  | .hbm, ⟨0, _⟩ => ⟨S800000x2, .i32⟩
  | .hbm, ⟨1, _⟩ => ⟨S800000x1, .f32⟩
  | .hbm, ⟨2, _⟩ => ⟨S800000, .f32⟩
  | .hbm, ⟨3, _⟩ => ⟨S50000x64, .f32⟩
  | .hbm, ⟨4, _⟩ => ⟨S193x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S193x128, .f32⟩
  | .hbm, ⟨9, _⟩ => ⟨S128, .f32⟩
  | .hbm, ⟨10, _⟩ => ⟨S128x32, .f32⟩
  | .hbm, ⟨11, _⟩ => ⟨S32, .f32⟩
  | .hbm, ⟨12, _⟩ => ⟨S800000x1, .i32⟩
  | .hbm, ⟨13, _⟩ => ⟨S800000, .i32⟩
  | .hbm, ⟨14, _⟩ => ⟨S800000x1, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x64, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x64, .f32⟩
  | .hbm, ⟨34, _⟩ => ⟨S800000x64, .f32⟩
  | .hbm, ⟨35, _⟩ => ⟨S800000x64, .f32⟩
  | .hbm, ⟨36, _⟩ => ⟨S800000x193, .f32⟩
  | .hbm, ⟨37, _⟩ => ⟨S800000x128, .f32⟩
  | .hbm, ⟨38, _⟩ => ⟨S1x128, .f32⟩
  | .hbm, ⟨39, _⟩ => ⟨S800000x128, .f32⟩
  | .hbm, ⟨40, _⟩ => ⟨S800000x128, .f32⟩
  | .hbm, ⟨41, _⟩ => ⟨S_, .f32⟩
  | .hbm, ⟨42, _⟩ => ⟨S800000x128, .f32⟩
  | .hbm, ⟨43, _⟩ => ⟨S800000x128, .f32⟩
  | .hbm, ⟨44, _⟩ => ⟨S800000x64, .f32⟩
  | .hbm, ⟨45, _⟩ => ⟨S1x64, .f32⟩
  | .hbm, ⟨46, _⟩ => ⟨S800000x64, .f32⟩
  | .hbm, ⟨47, _⟩ => ⟨S800000x64, .f32⟩
  | .hbm, ⟨48, _⟩ => ⟨S800000, .f32⟩
  | .hbm, ⟨49, _⟩ => ⟨S800000, .f32⟩
  | .hbm, ⟨50, _⟩ => ⟨S800000x1, .f32⟩
  | .hbm, ⟨51, _⟩ => ⟨S800000x1, .f32⟩
  | .hbm, ⟨52, _⟩ => ⟨S800000x2, .f32⟩
  | .hbm, ⟨53, _⟩ => ⟨S800000x128, .f32⟩
  | .hbm, ⟨54, _⟩ => ⟨S1x128, .f32⟩
  | .hbm, ⟨55, _⟩ => ⟨S800000x128, .f32⟩
  | .hbm, ⟨56, _⟩ => ⟨S800000x128, .f32⟩
  | .hbm, ⟨57, _⟩ => ⟨S_, .f32⟩
  | .hbm, ⟨58, _⟩ => ⟨S800000x128, .f32⟩
  | .hbm, ⟨59, _⟩ => ⟨S800000x128, .f32⟩
  | .hbm, ⟨60, _⟩ => ⟨S800000x32, .f32⟩
  | .hbm, ⟨61, _⟩ => ⟨S1x32, .f32⟩
  | .hbm, ⟨62, _⟩ => ⟨S800000x32, .f32⟩
  | .hbm, ⟨63, _⟩ => ⟨S800000x32, .f32⟩
  | .hbm, ⟨64, _⟩ => ⟨S800000x32x1, .f32⟩
  | .hbm, ⟨65, _⟩ => ⟨S800000x1x2, .f32⟩
  | .hbm, ⟨66, _⟩ => ⟨S800000x32x2, .f32⟩
  | .hbm, ⟨67, _⟩ => ⟨S800000x32x2, .f32⟩
  | .hbm, ⟨68, _⟩ => ⟨S800000x32x2, .f32⟩
  | _, _ => ⟨S800000x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_call0_cst : Ref sig .tc := ⟨.hbm, 41, rfl⟩
abbrev main_call0_v0 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_call1_cst : Ref sig .tc := ⟨.hbm, 57, rfl⟩
abbrev main_call1_v0 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩

abbrev nD : Nat := 1
abbrev τ : Topo := Topo.v7x

variable {F : FTy → Type} [FloatOps F]

class Facts₀ : Prop where
  slices_S800000x2_S800000x1_0_0 : S800000x2.Slices ![0, 0] S800000x1
  shapeCasts_S800000x1_S800000 : S800000x1.ShapeCasts S800000
  slices_S800000x2_S800000x1_0_1 : S800000x2.Slices ![0, 1] S800000x1
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x64_S800000x1_S800000x193_d1 : Shape.Concatenates [S800000x64, S800000x64, S800000x64, S800000x1] S800000x193 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  concatenates_S800000x1_S800000x1_S800000x2_d1 : Shape.Concatenates [S800000x1, S800000x1] S800000x2 1
  bcast_S32_S1x32_1 : S32.BroadcastsInDim S1x32 (![1] : Fin 1 → Fin S1x32.rank)
  bcast_S1x32_S800000x32_0_1 : S1x32.BroadcastsInDim S800000x32 (![0, 1] : Fin 2 → Fin S800000x32.rank)
  bcast_S800000x32_S800000x32x1_0_1 : S800000x32.BroadcastsInDim S800000x32x1 (![0, 1] : Fin 2 → Fin S800000x32x1.rank)
  bcast_S800000x2_S800000x1x2_0_2 : S800000x2.BroadcastsInDim S800000x1x2 (![0, 2] : Fin 2 → Fin S800000x1x2.rank)
  bcast_S800000x32x1_S800000x32x2_0_1_2 : S800000x32x1.BroadcastsInDim S800000x32x2 (![0, 1, 2] : Fin 3 → Fin S800000x32x2.rank)
  bcast_S800000x1x2_S800000x32x2_0_1_2 : S800000x1x2.BroadcastsInDim S800000x32x2 (![0, 1, 2] : Fin 3 → Fin S800000x32x2.rank)
  gather_S50000x64_S800000x1_S800000x64_1_0_n_n_0_1_164_wf : GatherDims.WF S50000x64 S800000x1 S800000x64 [1] [0] [] [0] [] 1 ![1, 64]
  dot_S800000x193_S193x128_S800000x128_1_0_0_1_n_n_wf : DotDims.WF S800000x193 S193x128 S800000x128 [1] [0] [0] [1] [] []
  dot_S800000x128_S128x64_S800000x64_1_0_0_1_n_n_wf : DotDims.WF S800000x128 S128x64 S800000x64 [1] [0] [0] [1] [] []
  dot_S800000x128_S128x32_S800000x32_1_0_0_1_n_n_wf : DotDims.WF S800000x128 S128x32 S800000x32 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x193_S193x128_S800000x128_1_0_0_1_n_n : DotDims S800000x193 S193x128 S800000x128 where
  lhsContracting := [1]
  rhsContracting := [0]
  lhsNonContracting := [0]
  rhsNonContracting := [1]
  lhsBatch := []
  rhsBatch := []
  wf := dot_S800000x193_S193x128_S800000x128_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def dot_S800000x128_S128x32_S800000x32_1_0_0_1_n_n : DotDims S800000x128 S128x32 S800000x32 where
  lhsContracting := [1]
  rhsContracting := [0]
  lhsNonContracting := [0]
  rhsNonContracting := [1]
  lhsBatch := []
  rhsBatch := []
  wf := dot_S800000x128_S128x32_S800000x32_1_0_0_1_n_n_wf

class Facts : Prop extends Facts₀ where

variable [Facts]
-- ==== Proof.RowSpec.lean ====
/-
  One edge's row of the encoder, on the extended reals, with no program in sight.

  An edge carries two gathered feature rows `a`, `b` (64 entries each), their entrywise absolute
  difference `d`, and one length `el`. A hidden unit of a first layer is `max (x · w + bias) 0` over the
  193 inputs `x = a ++ b ++ d ++ [el]` laid side by side. The same unit may be computed with the 193
  products grouped as three runs of 64 and one single product; addition on the extended reals is
  associative and commutative, so the two groupings agree for every input, finite or not (`hid_cat`).

  A second layer is a plain weighted sum plus a bias (`dense`).

  The vector output interleaves `amp k · cos θ` and `amp k · sin θ` along one axis of 64 entries. Written as
  two products with 0/1 selection matrices (`E q c = 1` iff `c = 2 q`, `O q c = 1` iff `c = 2 q + 1`), entry
  `2 k + d` of the sum is the single surviving term: `x · 0 = 0`, `x · 1 = x` and `x + 0 = x` hold for
  every extended real (`interleave`).
-/
import Idealize.ShloMosaic.PureOps.Ideal
import Mathlib.Algebra.BigOperators.Fin

noncomputable section

namespace Cert.EdgeRow

open scoped BigOperators

/-- The absolute value on the extended reals. -/
def absE (x : EReal) : EReal := max x (-x)

/-- A weighted sum of 128 activations plus a bias. -/
def dense (h : Fin 128 → EReal) (w : Fin 128 → EReal) (bias : EReal) : EReal := (∑ k, h k * w k) + bias

/-- A hidden unit with its 193 products grouped as three runs of 64 and one single product. -/
def hid3 (a b d : Fin 64 → EReal) (el : EReal) (wa wb wd : Fin 64 → EReal) (wl bias : EReal) : EReal :=
  max (((((∑ j, a j * wa j) + (∑ j, b j * wb j)) + (∑ j, d j * wd j)) + el * wl) + bias) 0

/-- The 193 inputs of one edge laid side by side: `a`, then `b`, then `d`, then `el`. -/
def cat (a b d : Fin 64 → EReal) (el : EReal) (j : Fin 193) : EReal :=
  if h1 : j.val < 64 then a ⟨j.val, h1⟩
  else if h2 : j.val < 128 then b ⟨j.val - 64, by omega⟩
  else if h3 : j.val < 192 then d ⟨j.val - 128, by omega⟩
  else el

/-- A hidden unit as one sum over the 193 inputs. -/
def hid (x w : Fin 193 → EReal) (bias : EReal) : EReal := max ((∑ j, x j * w j) + bias) 0

/-- A sum over 193 indices is the sum of its three runs of 64 and its last term. -/
theorem sum193 {M : Type*} [AddCommMonoid M] (f : Fin 193 → M) :
    ∑ j, f j = (((∑ j : Fin 64, f ⟨j.val, by omega⟩) + (∑ j : Fin 64, f ⟨64 + j.val, by omega⟩))
      + (∑ j : Fin 64, f ⟨128 + j.val, by omega⟩)) + f ⟨192, by omega⟩ := by
  have h1 := Fin.sum_univ_castSucc (n := 192) f
  have h2 := Fin.sum_univ_add (a := 128) (b := 64) (fun i : Fin (128 + 64) => f (Fin.castSucc (n := 192) i))
  have h3 := Fin.sum_univ_add (a := 64) (b := 64)
    (fun i : Fin (64 + 64) => f (Fin.castSucc (n := 192) (Fin.castAdd (n := 128) 64 i)))
  rw [h1, h2, h3]
  rfl

/-- The two groupings of a hidden unit's products agree. -/
theorem hid_cat (a b d : Fin 64 → EReal) (el : EReal) (w : Fin 193 → EReal) (bias : EReal) :
    hid (cat a b d el) w bias
      = hid3 a b d el (fun j => w ⟨j.val, by omega⟩) (fun j => w ⟨64 + j.val, by omega⟩)
          (fun j => w ⟨128 + j.val, by omega⟩) (w ⟨192, by omega⟩) bias := by
  unfold hid hid3
  rw [sum193]
  have ea : ∀ j : Fin 64, cat a b d el ⟨j.val, by omega⟩ = a j := fun j => by
    unfold cat; rw [dif_pos (show j.val < 64 from j.isLt)]
  have eb : ∀ j : Fin 64, cat a b d el ⟨64 + j.val, by omega⟩ = b j := fun j => by
    unfold cat
    rw [dif_neg (show ¬ (64 + j.val < 64) by omega), dif_pos (show 64 + j.val < 128 by omega)]
    exact congrArg b (Fin.ext (by show 64 + j.val - 64 = j.val; omega))
  have ed : ∀ j : Fin 64, cat a b d el ⟨128 + j.val, by omega⟩ = d j := fun j => by
    unfold cat
    rw [dif_neg (show ¬ (128 + j.val < 64) by omega), dif_neg (show ¬ (128 + j.val < 128) by omega),
      dif_pos (show 128 + j.val < 192 by omega)]
    exact congrArg d (Fin.ext (by show 128 + j.val - 128 = j.val; omega))
  have el' : cat a b d el ⟨192, by omega⟩ = el := by
    unfold cat
    rw [dif_neg (by decide), dif_neg (by decide), dif_neg (by decide)]
  simp only [ea, eb, ed, el']

/-- Entry `2 k + d` of the interleaved row is the one term its selection matrix keeps. -/
theorem interleave (x y : Fin 32 → EReal) (E O : Fin 32 → Fin 64 → EReal)
    (hE : ∀ q c, E q c = if c.val = 2 * q.val then 1 else 0)
    (hO : ∀ q c, O q c = if c.val = 2 * q.val + 1 then 1 else 0)
    (k : Fin 32) (d : Fin 2) (c : Fin 64) (hc : c.val = 2 * k.val + d.val) :
    (∑ q, x q * E q c) + (∑ q, y q * O q c) = if d.val = 0 then x k else y k := by
  have hd : d.val = 0 ∨ d.val = 1 := by omega
  rcases hd with hd | hd
  · rw [if_pos hd]
    have h1 : ∑ q, x q * E q c = x k := by
      rw [Finset.sum_eq_single k]
      · rw [hE, if_pos (by omega), mul_one]
      · intro q _ hq
        rw [hE, if_neg (fun h => hq (Fin.ext (by omega))), mul_zero]
      · intro h; exact absurd (Finset.mem_univ k) h
    have h2 : ∑ q, y q * O q c = 0 := Finset.sum_eq_zero fun q _ => by
      rw [hO, if_neg (by omega), mul_zero]
    rw [h1, h2, add_zero]
  · rw [if_neg (by omega)]
    have h1 : ∑ q, x q * E q c = 0 := Finset.sum_eq_zero fun q _ => by
      rw [hE, if_neg (by omega), mul_zero]
    have h2 : ∑ q, y q * O q c = y k := by
      rw [Finset.sum_eq_single k]
      · rw [hO, if_pos (by omega), mul_one]
      · intro q _ hq
        rw [hO, if_neg (fun h => hq (Fin.ext (by omega))), mul_zero]
      · intro h; exact absurd (Finset.mem_univ k) h
    rw [h1, h2, zero_add]

end Cert.EdgeRow

end
-- ==== Proof.KPay.lean ====
/-
  The kernel body's arithmetic read at one index, on the extended reals.

  Row `p` of a block of 2000 edges is computed from row `p` of the two feature blocks and of the two
  one-column blocks, and from the whole weight blocks: every matrix product contracts one axis, so an
  output entry is a finite sum of products of entries, a change of float format is the identity, and a
  broadcast repeats an entry. Each lemma states one payload of the body at the index `(p, k)`.
-/
import proofs.«426144_j18451179504417_1_alg».proof.Proof.Gen.KernelIdeal.Skeleton
import proofs.«426144_j18451179504417_1_alg».proof.Proof.RowSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Cert.EdgeRow
open Idealize.ShloMosaic Idealize.ShloMosaic.ValueIdx
open scoped BigOperators

/-! ## The four matrix products at an index -/

/-! ### The operands' indices, one axis at a time

Each product contracts the left operand's columns with the right operand's rows and has no batch axis:
at the output index `i` and the contraction position `q` the left operand is read at row `i 0`, column `q`,
and the right operand at row `q`, column `i 1`. -/

private theorem mm_64_128_lhs_row (i : S2000x128.Idx) (q : dot_S2000x64_S64x128_S2000x128_1_0_0_1_n_n.contr.Idx) :
    (dot_S2000x64_S64x128_S2000x128_1_0_0_1_n_n.lhsIdx i q 0).val = (i 0).val := by
  unfold DotDims.lhsIdx
  rw [dif_neg (show ¬(0 : Fin S2000x64.rank) ∈ dot_S2000x64_S64x128_S2000x128_1_0_0_1_n_n.lhsBatch by decide), dif_pos (show (0 : Fin S2000x64.rank) ∈ dot_S2000x64_S64x128_S2000x128_1_0_0_1_n_n.lhsNonContracting by decide)]
  rfl
private theorem mm_64_128_lhs_col (i : S2000x128.Idx) (q : dot_S2000x64_S64x128_S2000x128_1_0_0_1_n_n.contr.Idx) :
    (dot_S2000x64_S64x128_S2000x128_1_0_0_1_n_n.lhsIdx i q 1).val = (q ⟨0, by decide⟩).val :=
  dot_S2000x64_S64x128_S2000x128_1_0_0_1_n_n.lhsIdx_val_of_single rfl i q
private theorem mm_64_128_rhs_row (i : S2000x128.Idx) (q : dot_S2000x64_S64x128_S2000x128_1_0_0_1_n_n.contr.Idx) :
    (dot_S2000x64_S64x128_S2000x128_1_0_0_1_n_n.rhsIdx i q 0).val = (q ⟨0, by decide⟩).val :=
  dot_S2000x64_S64x128_S2000x128_1_0_0_1_n_n.rhsIdx_val_of_single rfl i q
private theorem mm_64_128_rhs_col (i : S2000x128.Idx) (q : dot_S2000x64_S64x128_S2000x128_1_0_0_1_n_n.contr.Idx) :
    (dot_S2000x64_S64x128_S2000x128_1_0_0_1_n_n.rhsIdx i q 1).val = (i 1).val := by
  unfold DotDims.rhsIdx
  rw [dif_neg (show ¬(1 : Fin S64x128.rank) ∈ dot_S2000x64_S64x128_S2000x128_1_0_0_1_n_n.rhsBatch by decide), dif_pos (show (1 : Fin S64x128.rank) ∈ dot_S2000x64_S64x128_S2000x128_1_0_0_1_n_n.rhsNonContracting by decide)]
  rfl

private theorem mm_128_64_lhs_row (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
private theorem mm_128_64_lhs_col (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
private theorem mm_128_64_rhs_row (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
private theorem mm_128_64_rhs_col (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

private theorem mm_128_32_lhs_row (i : S2000x32.Idx) (q : dot_S2000x128_S128x32_S2000x32_1_0_0_1_n_n.contr.Idx) :
    (dot_S2000x128_S128x32_S2000x32_1_0_0_1_n_n.lhsIdx i q 0).val = (i 0).val := by
  unfold DotDims.lhsIdx
  rw [dif_neg (show ¬(0 : Fin S2000x128.rank) ∈ dot_S2000x128_S128x32_S2000x32_1_0_0_1_n_n.lhsBatch by decide), dif_pos (show (0 : Fin S2000x128.rank) ∈ dot_S2000x128_S128x32_S2000x32_1_0_0_1_n_n.lhsNonContracting by decide)]
  rfl
private theorem mm_128_32_lhs_col (i : S2000x32.Idx) (q : dot_S2000x128_S128x32_S2000x32_1_0_0_1_n_n.contr.Idx) :
    (dot_S2000x128_S128x32_S2000x32_1_0_0_1_n_n.lhsIdx i q 1).val = (q ⟨0, by decide⟩).val :=
  dot_S2000x128_S128x32_S2000x32_1_0_0_1_n_n.lhsIdx_val_of_single rfl i q
private theorem mm_128_32_rhs_row (i : S2000x32.Idx) (q : dot_S2000x128_S128x32_S2000x32_1_0_0_1_n_n.contr.Idx) :
    (dot_S2000x128_S128x32_S2000x32_1_0_0_1_n_n.rhsIdx i q 0).val = (q ⟨0, by decide⟩).val :=
  dot_S2000x128_S128x32_S2000x32_1_0_0_1_n_n.rhsIdx_val_of_single rfl i q
private theorem mm_128_32_rhs_col (i : S2000x32.Idx) (q : dot_S2000x128_S128x32_S2000x32_1_0_0_1_n_n.contr.Idx) :
    (dot_S2000x128_S128x32_S2000x32_1_0_0_1_n_n.rhsIdx i q 1).val = (i 1).val := by
  unfold DotDims.rhsIdx
  rw [dif_neg (show ¬(1 : Fin S128x32.rank) ∈ dot_S2000x128_S128x32_S2000x32_1_0_0_1_n_n.rhsBatch by decide), dif_pos (show (1 : Fin S128x32.rank) ∈ dot_S2000x128_S128x32_S2000x32_1_0_0_1_n_n.rhsNonContracting by decide)]
  rfl

private theorem mm_32_64_lhs_row (i : S2000x64.Idx) (q : dot_S2000x32_S32x64_S2000x64_1_0_0_1_n_n.contr.Idx) :
    (dot_S2000x32_S32x64_S2000x64_1_0_0_1_n_n.lhsIdx i q 0).val = (i 0).val := by
  unfold DotDims.lhsIdx
  rw [dif_neg (show ¬(0 : Fin S2000x32.rank) ∈ dot_S2000x32_S32x64_S2000x64_1_0_0_1_n_n.lhsBatch by decide), dif_pos (show (0 : Fin S2000x32.rank) ∈ dot_S2000x32_S32x64_S2000x64_1_0_0_1_n_n.lhsNonContracting by decide)]
  rfl
private theorem mm_32_64_lhs_col (i : S2000x64.Idx) (q : dot_S2000x32_S32x64_S2000x64_1_0_0_1_n_n.contr.Idx) :
    (dot_S2000x32_S32x64_S2000x64_1_0_0_1_n_n.lhsIdx i q 1).val = (q ⟨0, by decide⟩).val :=
  dot_S2000x32_S32x64_S2000x64_1_0_0_1_n_n.lhsIdx_val_of_single rfl i q
private theorem mm_32_64_rhs_row (i : S2000x64.Idx) (q : dot_S2000x32_S32x64_S2000x64_1_0_0_1_n_n.contr.Idx) :
    (dot_S2000x32_S32x64_S2000x64_1_0_0_1_n_n.rhsIdx i q 0).val = (q ⟨0, by decide⟩).val :=
  dot_S2000x32_S32x64_S2000x64_1_0_0_1_n_n.rhsIdx_val_of_single rfl i q
private theorem mm_32_64_rhs_col (i : S2000x64.Idx) (q : dot_S2000x32_S32x64_S2000x64_1_0_0_1_n_n.contr.Idx) :
    (dot_S2000x32_S32x64_S2000x64_1_0_0_1_n_n.rhsIdx i q 1).val = (i 1).val := by
  unfold DotDims.rhsIdx
  rw [dif_neg (show ¬(1 : Fin S32x64.rank) ∈ dot_S2000x32_S32x64_S2000x64_1_0_0_1_n_n.rhsBatch by decide), dif_pos (show (1 : Fin S32x64.rank) ∈ dot_S2000x32_S32x64_S2000x64_1_0_0_1_n_n.rhsNonContracting by decide)]
  rfl

/-! ### The products -/

theorem mm_64_128 (l : FVec Ideal S2000x64 .bf16) (r : FVec Ideal S64x128 .bf16) (p : Fin 2000) (k : Fin 128) :
    matmul (F := Ideal) dot_S2000x64_S64x128_S2000x128_1_0_0_1_n_n none l r (constant (F := Ideal) S2000x128 .f32 0x00000000#32) (ix2 p k)
      = ∑ j : Fin 64, l (ix2 p j) * r (ix2 j k) := by
  refine (Ideal.matmul_constant_zero_apply dot_S2000x64_S64x128_S2000x128_1_0_0_1_n_n none l r (ix2 p k)).trans ?_
  rw [← Equiv.sum_comp (ValueIdx.contrEquiv1 dot_S2000x64_S64x128_S2000x128_1_0_0_1_n_n 64 rfl rfl).symm]
  refine Finset.sum_congr rfl fun j _ => ?_
  have hs := ValueIdx.contrEquiv1_symm_val dot_S2000x64_S64x128_S2000x128_1_0_0_1_n_n 64 rfl rfl j
  have el : dot_S2000x64_S64x128_S2000x128_1_0_0_1_n_n.lhsIdx (ix2 p k) ((ValueIdx.contrEquiv1 dot_S2000x64_S64x128_S2000x128_1_0_0_1_n_n 64 rfl rfl).symm j) = ix2 p j := funext fun a => Fin.ext (by
    match a with
    | ⟨0, _⟩ => exact mm_64_128_lhs_row _ _
    | ⟨1, _⟩ => exact (mm_64_128_lhs_col _ _).trans hs)
  have er : dot_S2000x64_S64x128_S2000x128_1_0_0_1_n_n.rhsIdx (ix2 p k) ((ValueIdx.contrEquiv1 dot_S2000x64_S64x128_S2000x128_1_0_0_1_n_n 64 rfl rfl).symm j) = ix2 j k := funext fun a => Fin.ext (by
    match a with
    | ⟨0, _⟩ => exact (mm_64_128_rhs_row _ _).trans hs
    | ⟨1, _⟩ => exact mm_64_128_rhs_col _ _)
  rw [el, er]

theorem mm_128_64 (l : FVec Ideal S2000x128 .bf16) (r : FVec Ideal S128x64 .bf16) (p : Fin 2000) (c : Fin 64) :
    matmul (F := Ideal) dot_S2000x128_S128x64_S2000x64_1_0_0_1_n_n none l r (constant (F := Ideal) S2000x64 .f32 0x00000000#32) (ix2 p c)
      = ∑ k : Fin 128, l (ix2 p k) * r (ix2 k c) := by
  refine (Ideal.matmul_constant_zero_apply dot_S2000x128_S128x64_S2000x64_1_0_0_1_n_n none l r (ix2 p c)).trans ?_
  rw [← Equiv.sum_comp (ValueIdx.contrEquiv1 dot_S2000x128_S128x64_S2000x64_1_0_0_1_n_n 128 rfl rfl).symm]
  refine Finset.sum_congr rfl fun k _ => ?_
  have hs := ValueIdx.contrEquiv1_symm_val dot_S2000x128_S128x64_S2000x64_1_0_0_1_n_n 128 rfl rfl k
  have el : dot_S2000x128_S128x64_S2000x64_1_0_0_1_n_n.lhsIdx (ix2 p c) ((ValueIdx.contrEquiv1 dot_S2000x128_S128x64_S2000x64_1_0_0_1_n_n 128 rfl rfl).symm k) = ix2 p k := funext fun a => Fin.ext (by
    match a with
    | ⟨0, _⟩ => exact mm_128_64_lhs_row _ _
    | ⟨1, _⟩ => exact (mm_128_64_lhs_col _ _).trans hs)
  have er : dot_S2000x128_S128x64_S2000x64_1_0_0_1_n_n.rhsIdx (ix2 p c) ((ValueIdx.contrEquiv1 dot_S2000x128_S128x64_S2000x64_1_0_0_1_n_n 128 rfl rfl).symm k) = ix2 k c := funext fun a => Fin.ext (by
    match a with
    | ⟨0, _⟩ => exact (mm_128_64_rhs_row _ _).trans hs
    | ⟨1, _⟩ => exact mm_128_64_rhs_col _ _)
  rw [el, er]

theorem mm_128_32 (l : FVec Ideal S2000x128 .bf16) (r : FVec Ideal S128x32 .bf16) (p : Fin 2000) (q : Fin 32) :
    matmul (F := Ideal) dot_S2000x128_S128x32_S2000x32_1_0_0_1_n_n none l r (constant (F := Ideal) S2000x32 .f32 0x00000000#32) (ix2 p q)
      = ∑ k : Fin 128, l (ix2 p k) * r (ix2 k q) := by
  refine (Ideal.matmul_constant_zero_apply dot_S2000x128_S128x32_S2000x32_1_0_0_1_n_n none l r (ix2 p q)).trans ?_
  rw [← Equiv.sum_comp (ValueIdx.contrEquiv1 dot_S2000x128_S128x32_S2000x32_1_0_0_1_n_n 128 rfl rfl).symm]
  refine Finset.sum_congr rfl fun k _ => ?_
  have hs := ValueIdx.contrEquiv1_symm_val dot_S2000x128_S128x32_S2000x32_1_0_0_1_n_n 128 rfl rfl k
  have el : dot_S2000x128_S128x32_S2000x32_1_0_0_1_n_n.lhsIdx (ix2 p q) ((ValueIdx.contrEquiv1 dot_S2000x128_S128x32_S2000x32_1_0_0_1_n_n 128 rfl rfl).symm k) = ix2 p k := funext fun a => Fin.ext (by
    match a with
    | ⟨0, _⟩ => exact mm_128_32_lhs_row _ _
    | ⟨1, _⟩ => exact (mm_128_32_lhs_col _ _).trans hs)
  have er : dot_S2000x128_S128x32_S2000x32_1_0_0_1_n_n.rhsIdx (ix2 p q) ((ValueIdx.contrEquiv1 dot_S2000x128_S128x32_S2000x32_1_0_0_1_n_n 128 rfl rfl).symm k) = ix2 k q := funext fun a => Fin.ext (by
    match a with
    | ⟨0, _⟩ => exact (mm_128_32_rhs_row _ _).trans hs
    | ⟨1, _⟩ => exact mm_128_32_rhs_col _ _)
  rw [el, er]

theorem mm_32_64 (l : FVec Ideal S2000x32 .bf16) (r : FVec Ideal S32x64 .bf16) (p : Fin 2000) (c : Fin 64) :
    matmul (F := Ideal) dot_S2000x32_S32x64_S2000x64_1_0_0_1_n_n none l r (constant (F := Ideal) S2000x64 .f32 0x00000000#32) (ix2 p c)
      = ∑ q : Fin 32, l (ix2 p q) * r (ix2 q c) := by
  refine (Ideal.matmul_constant_zero_apply dot_S2000x32_S32x64_S2000x64_1_0_0_1_n_n none l r (ix2 p c)).trans ?_
  rw [← Equiv.sum_comp (ValueIdx.contrEquiv1 dot_S2000x32_S32x64_S2000x64_1_0_0_1_n_n 32 rfl rfl).symm]
  refine Finset.sum_congr rfl fun q _ => ?_
  have hs := ValueIdx.contrEquiv1_symm_val dot_S2000x32_S32x64_S2000x64_1_0_0_1_n_n 32 rfl rfl q
  have el : dot_S2000x32_S32x64_S2000x64_1_0_0_1_n_n.lhsIdx (ix2 p c) ((ValueIdx.contrEquiv1 dot_S2000x32_S32x64_S2000x64_1_0_0_1_n_n 32 rfl rfl).symm q) = ix2 p q := funext fun a => Fin.ext (by
    match a with
    | ⟨0, _⟩ => exact mm_32_64_lhs_row _ _
    | ⟨1, _⟩ => exact (mm_32_64_lhs_col _ _).trans hs)
  have er : dot_S2000x32_S32x64_S2000x64_1_0_0_1_n_n.rhsIdx (ix2 p c) ((ValueIdx.contrEquiv1 dot_S2000x32_S32x64_S2000x64_1_0_0_1_n_n 32 rfl rfl).symm q) = ix2 q c := funext fun a => Fin.ext (by
    match a with
    | ⟨0, _⟩ => exact (mm_32_64_rhs_row _ _).trans hs
    | ⟨1, _⟩ => exact mm_32_64_rhs_col _ _)
  rw [el, er]

/-! ## Layout operations at an index -/

/-- A `[a, 1]` array broadcast to `[a, b]` reads, at `(p, c)`, the operand's row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of `b` entries laid as one row and repeated over `a` rows reads, at `(p, c)`, its entry `c`. -/
private theorem row_of_vector_apply {α : Type} {a b : ℕ} (v : (⟨1, ![b]⟩ : Shape).Idx → α)
    (h : (⟨1, ![b]⟩ : Shape).ShapeCasts ⟨2, ![1, b]⟩) (h' : (⟨2, ![1, b]⟩ : Shape).Broadcasts ⟨2, ![a, b]⟩)
    (p : Fin a) (c : Fin b) :
    broadcastTo ⟨2, ![a, b]⟩ (shapeCast ⟨2, ![1, b]⟩ v h) h' (ix2 p c) = v (ix1 c) := by
  rw [broadcastTo_1b_ab_apply, shapeCast_a_1a_apply]

/-! ## The payloads at an index -/

theorem pay4_apply (v7 : Vec Ideal S2000x1 .f32) (p : Fin 2000) :
    k0_pay4 (F := Ideal) v7 (ix2 p (0 : Fin 1)) = v7 (ix2 p (0 : Fin 1)) := by
  unfold k0_pay4
  rw [shapeCast_self]

theorem pay5_apply (v0 : Vec Ideal S2000x64 .f32) (p : Fin 2000) (j : Fin 64) :
    k0_pay5 (F := Ideal) v0 (ix2 p j) = v0 (ix2 p j) := by
  unfold k0_pay5 k0_pay2
  rw [shapeCast_self]
  rfl

theorem pay6_apply (v2 : Vec Ideal S2000x64 .f32) (p : Fin 2000) (j : Fin 64) :
    k0_pay6 (F := Ideal) v2 (ix2 p j) = v2 (ix2 p j) := by
  unfold k0_pay6 k0_pay3
  rw [shapeCast_self]
  rfl

theorem pay7_apply (v0 v2 : Vec Ideal S2000x64 .f32) (p : Fin 2000) (j : Fin 64) :
    k0_pay7 (F := Ideal) v0 v2 (ix2 p j) = absE (v0 (ix2 p j) - v2 (ix2 p j)) := by
  unfold k0_pay7 k0_pay2 k0_pay3
  rw [shapeCast_self, shapeCast_self]
  rfl

theorem pay11_apply (v8 : FVec Ideal S2000x1 .f32) (p : Fin 2000) :
    k0_pay11 (F := Ideal) v8 (ix2 p (0 : Fin 1)) = Ideal.cos (v8 (ix2 p (0 : Fin 1))) := by
  rfl

/-! ## A first layer at an index

Both branches compute their hidden block by the same sequence of operations from three feature blocks `a`, `b`,
`d` of 64 columns, the one-column block of lengths, three weight blocks of 64 rows, the weight row of the
lengths and the bias vector. -/

/-- The hidden block of a first layer, as the body computes it. -/
private def hidden (a b d : FVec Ideal S2000x64 .bf16) (el : Vec Ideal S2000x1 .f32) (wa wb wd : Vec Ideal S64x128 .f32)
    (wl : Vec Ideal S1x128 .f32) (bias : Vec Ideal S128 .f32) : FVec Ideal S2000x128 .bf16 :=
  truncf .bf16
    (maximumf
      (addf
        (addf
          (addf
            (addf
              (matmul dot_S2000x64_S64x128_S2000x128_1_0_0_1_n_n none a (truncf .bf16 wa bitsLt_bf16_f32)
                (constant S2000x128 .f32 0x00000000#32))
              (matmul dot_S2000x64_S64x128_S2000x128_1_0_0_1_n_n none b (truncf .bf16 wb bitsLt_bf16_f32)
                (constant S2000x128 .f32 0x00000000#32)))
            (matmul dot_S2000x64_S64x128_S2000x128_1_0_0_1_n_n none d (truncf .bf16 wd bitsLt_bf16_f32)
              (constant S2000x128 .f32 0x00000000#32)))
          (mulf (broadcastTo S2000x128 el broadcasts_S2000x1_S2000x128) (broadcastTo S2000x128 wl broadcasts_S1x128_S2000x128)))
        (broadcastTo S2000x128 (shapeCast S1x128 bias shapeCasts_S128_S1x128) broadcasts_S1x128_S2000x128))
      (broadcast S2000x128 (Scalar.ofBits .f32 0x00000000#32)))
    bitsLt_bf16_f32

/-- An entry of the hidden block is the hidden unit of its row and column. -/
private theorem hidden_apply (a b d : FVec Ideal S2000x64 .bf16) (el : Vec Ideal S2000x1 .f32) (wa wb wd : Vec Ideal S64x128 .f32)
    (wl : Vec Ideal S1x128 .f32) (bias : Vec Ideal S128 .f32) (p : Fin 2000) (k : Fin 128) :
    hidden a b d el wa wb wd wl bias (ix2 p k)
      = hid3 (fun j => a (ix2 p j)) (fun j => b (ix2 p j)) (fun j => d (ix2 p j)) (el (ix2 p (0 : Fin 1)))
          (fun j => wa (ix2 j k)) (fun j => wb (ix2 j k)) (fun j => wd (ix2 j k)) (wl (ix2 (0 : Fin 1) k)) (bias (ix1 k)) := by
  unfold hidden hid3
  rw [truncf_apply, maximumf_apply, addf_apply, addf_apply, addf_apply, addf_apply, mulf_apply, broadcast_apply,
    mm_64_128, mm_64_128, mm_64_128, broadcastTo_a1_ab_apply, broadcastTo_1b_ab_apply, row_of_vector_apply,
    Ideal.ofBits_def, Ideal.ofBits_zero_f32]
  rfl

/-- A hidden unit of the scalar branch's first layer. -/
theorem pay8_apply (v0 v2 : Vec Ideal S2000x64 .f32) (v6 : Vec Ideal S2000x1 .f32) (v12 v14 v16 : Vec Ideal S64x128 .f32)
    (v18 : Vec Ideal S1x128 .f32) (v28 : Vec Ideal S128 .f32) (p : Fin 2000) (k : Fin 128) :
    k0_pay8 (F := Ideal) v0 v2 v6 v12 v14 v16 v18 v28 (ix2 p k)
      = hid3 (fun j => v0 (ix2 p j)) (fun j => v2 (ix2 p j)) (fun j => absE (v0 (ix2 p j) - v2 (ix2 p j))) (v6 (ix2 p (0 : Fin 1)))
          (fun j => v12 (ix2 j k)) (fun j => v14 (ix2 j k)) (fun j => v16 (ix2 j k)) (v18 (ix2 (0 : Fin 1) k)) (v28 (ix1 k)) := by
  have h : k0_pay8 (F := Ideal) v0 v2 v6 v12 v14 v16 v18 v28
      = hidden (k0_pay5 v0) (k0_pay6 v2) (k0_pay7 v0 v2) v6 v12 v14 v16 v18 v28 := rfl
  rw [h, hidden_apply]
  simp only [pay5_apply, pay6_apply, pay7_apply]

/-- An entry of the scalar output's block. -/
theorem pay9_apply (v34 : FVec Ideal S2000x128 .bf16) (v35 : Vec Ideal S128x64 .f32) (v38 : Vec Ideal S64 .f32) (p : Fin 2000) (c : Fin 64) :
    k0_pay9 (F := Ideal) v34 v35 v38 (ix2 p c) = dense (fun k => v34 (ix2 p k)) (fun k => v35 (ix2 k c)) (v38 (ix1 c)) := by
  unfold k0_pay9 dense
  rw [addf_apply, mm_128_64, row_of_vector_apply]
  rfl

/-- An amplitude of the vector branch: both layers. -/
theorem pay10_apply (v6 : Vec Ideal S2000x1 .f32) (v9 v10 v11 : FVec Ideal S2000x64 .bf16) (v43 v45 v47 : Vec Ideal S64x128 .f32)
    (v49 : Vec Ideal S1x128 .f32) (v59 : Vec Ideal S128 .f32) (v66 : Vec Ideal S128x32 .f32) (v69 : Vec Ideal S32 .f32) (p : Fin 2000) (q : Fin 32) :
    k0_pay10 (F := Ideal) v6 v9 v10 v11 v43 v45 v47 v49 v59 v66 v69 (ix2 p q)
      = dense (fun k => hid3 (fun j => v9 (ix2 p j)) (fun j => v10 (ix2 p j)) (fun j => v11 (ix2 p j)) (v6 (ix2 p (0 : Fin 1)))
            (fun j => v43 (ix2 j k)) (fun j => v45 (ix2 j k)) (fun j => v47 (ix2 j k)) (v49 (ix2 (0 : Fin 1) k)) (v59 (ix1 k)))
          (fun k => v66 (ix2 k q)) (v69 (ix1 q)) := by
  have h : k0_pay10 (F := Ideal) v6 v9 v10 v11 v43 v45 v47 v49 v59 v66 v69
      = addf (matmul dot_S2000x128_S128x32_S2000x32_1_0_0_1_n_n none (hidden v9 v10 v11 v6 v43 v45 v47 v49 v59)
            (truncf .bf16 v66 bitsLt_bf16_f32) (constant S2000x32 .f32 0x00000000#32))
          (broadcastTo S2000x32 (shapeCast S1x32 v69 shapeCasts_S32_S1x32) broadcasts_S1x32_S2000x32) := rfl
  rw [h, addf_apply, mm_128_32, row_of_vector_apply]
  unfold dense
  simp only [hidden_apply]
  rfl

/-- An entry of the interleaved vector output's block: two selection products. -/
theorem pay1_apply (v8 : FVec Ideal S2000x1 .f32) (v72 : FVec Ideal S2000x32 .f32) (v73 : FVec Ideal S2000x1 .f32)
    (v81 v83 : Vec Ideal S32x64 .f32) (p : Fin 2000) (c : Fin 64) :
    k0_pay1 (F := Ideal) v8 v72 v73 v81 v83 (ix2 p c)
      = (∑ q : Fin 32, (v72 (ix2 p q) * v73 (ix2 p (0 : Fin 1))) * v81 (ix2 q c))
        + (∑ q : Fin 32, (v72 (ix2 p q) * Ideal.sin (v8 (ix2 p (0 : Fin 1)))) * v83 (ix2 q c)) := by
  unfold k0_pay1
  rw [addf_apply, mm_32_64, mm_32_64]
  simp only [truncf_apply, mulf_apply, broadcastTo_a1_ab_apply]
  rfl

end Cert.KernelIdeal.Pay

end
-- ==== Proof.KOut.lean ====
/-
  What the kernel body leaves in its two output buffers, read at one index.

  The body stores each output block whole, once. Row `p` of the scalar block is the second layer of the
  scalar perceptron applied to row `p`'s 193 inputs; row `p` of the vector block is, at column `c`, the
  sum of two selection products of the amplitudes scaled by the cosine and by the sine of row `p`'s angle.
  The first-layer weights arrive as one 193-row block that the body reads in four row ranges
  (0-63, 64-127, 128-191 and row 192): grouped that way the 193 products of a hidden unit are the one sum
  of the specification, because addition on the extended reals is associative and commutative.
-/
import proofs.«426144_j18451179504417_1_alg».proof.Proof.Gen.KernelIdeal.Frame
import proofs.«426144_j18451179504417_1_alg».proof.Proof.KPay

set_option maxRecDepth 16384

noncomputable section

namespace Cert.KernelIdeal.Out

open Cert.KernelIdeal Cert.KernelIdeal.Gen Cert.KernelIdeal.Pay Cert.EdgeRow
open Idealize.ShloMosaic Idealize.ShloMosaic.ValueIdx
open scoped BigOperators

/-! ## Where each of the body's rectangles sends an index -/

/-- A rectangle that is its whole buffer sends an index to itself. -/
theorem idx_r0 (y : S2000x64.Idx) : r0_0.idx y = y := by
  funext a; apply Fin.ext
  match a with
  | ⟨0, _⟩ => show 0 + 1 * (y ⟨0, _⟩).val = _; omega
  | ⟨1, _⟩ => show 0 + 1 * (y ⟨1, _⟩).val = _; omega
theorem idx_r1 (y : S2000x1.Idx) : r0_1.idx y = y := by
  funext a; apply Fin.ext
  match a with
  | ⟨0, _⟩ => show 0 + 1 * (y ⟨0, _⟩).val = _; omega
  | ⟨1, _⟩ => show 0 + 1 * (y ⟨1, _⟩).val = _; omega
theorem idx_r6 (y : S128.Idx) : r0_6.idx y = y := by
  funext a; apply Fin.ext
  match a with
  | ⟨0, _⟩ => show 0 + 1 * (y ⟨0, _⟩).val = _; omega
theorem idx_r7 (y : S128x64.Idx) : r0_7.idx y = y := by
  funext a; apply Fin.ext
  match a with
  | ⟨0, _⟩ => show 0 + 1 * (y ⟨0, _⟩).val = _; omega
  | ⟨1, _⟩ => show 0 + 1 * (y ⟨1, _⟩).val = _; omega
theorem idx_r8 (y : S64.Idx) : r0_8.idx y = y := by
  funext a; apply Fin.ext
  match a with
  | ⟨0, _⟩ => show 0 + 1 * (y ⟨0, _⟩).val = _; omega
theorem idx_r9 (y : S128x32.Idx) : r0_9.idx y = y := by
  funext a; apply Fin.ext
  match a with
  | ⟨0, _⟩ => show 0 + 1 * (y ⟨0, _⟩).val = _; omega
  | ⟨1, _⟩ => show 0 + 1 * (y ⟨1, _⟩).val = _; omega
theorem idx_r10 (y : S32.Idx) : r0_10.idx y = y := by
  funext a; apply Fin.ext
  match a with
  | ⟨0, _⟩ => show 0 + 1 * (y ⟨0, _⟩).val = _; omega
theorem idx_r11 (y : S32x64.Idx) : r0_11.idx y = y := by
  funext a; apply Fin.ext
  match a with
  | ⟨0, _⟩ => show 0 + 1 * (y ⟨0, _⟩).val = _; omega
  | ⟨1, _⟩ => show 0 + 1 * (y ⟨1, _⟩).val = _; omega

/-- The three 64-row ranges of the first-layer weights, and their last row, each at the row of the 193 it names. -/
theorem idx_ra (j : Fin 64) (k : Fin 128) : r0_2.idx (ix2 j k) = ix2 (⟨j.val, by omega⟩ : Fin 193) k := by
  funext a; apply Fin.ext
  match a with
  | ⟨0, _⟩ => show 0 + 1 * j.val = j.val; omega
  | ⟨1, _⟩ => show 0 + 1 * k.val = k.val; omega
theorem idx_rb (j : Fin 64) (k : Fin 128) : r0_3.idx (ix2 j k) = ix2 (⟨64 + j.val, by omega⟩ : Fin 193) k := by
  funext a; apply Fin.ext
  match a with
  | ⟨0, _⟩ => show 64 + 1 * j.val = 64 + j.val; omega
  | ⟨1, _⟩ => show 0 + 1 * k.val = k.val; omega
theorem idx_rd (j : Fin 64) (k : Fin 128) : r0_4.idx (ix2 j k) = ix2 (⟨128 + j.val, by omega⟩ : Fin 193) k := by
  funext a; apply Fin.ext
  match a with
  | ⟨0, _⟩ => show 128 + 1 * j.val = 128 + j.val; omega
  | ⟨1, _⟩ => show 0 + 1 * k.val = k.val; omega
theorem idx_rl (k : Fin 128) : r0_5.idx (ix2 (0 : Fin 1) k) = ix2 (⟨192, by omega⟩ : Fin 193) k := by
  funext a; apply Fin.ext
  match a with
  | ⟨0, _⟩ => show 192 + 1 * 0 = 192; rfl
  | ⟨1, _⟩ => show 0 + 1 * k.val = k.val; omega

theorem hz2 : (![0, 0] : Fin 2 → Nat) = fun _ => 0 := by
  funext a; match a with | ⟨0, _⟩ => rfl | ⟨1, _⟩ => rfl

/-! ## The two output blocks at an index -/

/-- The 193 inputs of row `p` of a block: its two feature rows, their absolute difference, its length. -/
def rowIn (x0 x1 : Vec Ideal S2000x64 .f32) (x2 : Vec Ideal S2000x1 .f32) (p : Fin 2000) : Fin 193 → EReal :=
  cat (fun j => x0 (ix2 p j)) (fun j => x1 (ix2 p j)) (fun j => absE (x0 (ix2 p j) - x1 (ix2 p j))) (x2 (ix2 p (0 : Fin 1)))

/-- Entry `(p, c)` of the scalar output block. -/
theorem out14_apply (x0 x1 : Vec Ideal S2000x64 .f32) (x2 x3 : Vec Ideal S2000x1 .f32) (x4 : Vec Ideal S193x128 .f32)
    (x5 : Vec Ideal S128 .f32) (x6 : Vec Ideal S128x64 .f32) (x7 : Vec Ideal S64 .f32) (x8 : Vec Ideal S193x128 .f32)
    (x9 : Vec Ideal S128 .f32) (x10 : Vec Ideal S128x32 .f32) (x11 : Vec Ideal S32 .f32) (x12 x13 : Vec Ideal S32x64 .f32)
    (p : Fin 2000) (c : Fin 64) :
    out0_14 (F := Ideal) x0 x1 x2 x3 x4 x5 x6 x7 x8 x9 x10 x11 x12 x13 (ix2 p c)
      = dense (fun k => hid (rowIn x0 x1 x2 p) (fun j => x4 (ix2 j k)) (x5 (ix1 k))) (fun k => x6 (ix2 k c)) (x7 (ix1 c)) := by
  unfold out0_14
  rw [View.canon_unit_zero hz2, pay9_apply]
  have h1 : (fun k : Fin 128 => k0_pay8 (F := Ideal) (View.ld x0 r0_0) (View.ld x1 r0_0) (View.ld x2 r0_1) (View.ld x4 r0_2) (View.ld x4 r0_3) (View.ld x4 r0_4) (View.ld x4 r0_5) (View.ld x5 r0_6) (ix2 p k))
      = fun k => hid (rowIn x0 x1 x2 p) (fun j => x4 (ix2 j k)) (x5 (ix1 k)) := by
    funext k
    rw [pay8_apply, rowIn, hid_cat]
    simp only [View.ld, idx_r0, idx_r1, idx_r6, idx_ra, idx_rb, idx_rd, idx_rl]
  rw [h1]
  simp only [View.ld, idx_r7, idx_r8]

/-- Entry `(p, c)` of the interleaved vector output block: the amplitudes scaled by the cosine, through the first
    selection matrix, plus the amplitudes scaled by the sine, through the second. -/
theorem out15_apply (x0 x1 : Vec Ideal S2000x64 .f32) (x2 x3 : Vec Ideal S2000x1 .f32) (x4 : Vec Ideal S193x128 .f32)
    (x5 : Vec Ideal S128 .f32) (x6 : Vec Ideal S128x64 .f32) (x7 : Vec Ideal S64 .f32) (x8 : Vec Ideal S193x128 .f32)
    (x9 : Vec Ideal S128 .f32) (x10 : Vec Ideal S128x32 .f32) (x11 : Vec Ideal S32 .f32) (x12 x13 : Vec Ideal S32x64 .f32)
    (p : Fin 2000) (c : Fin 64) :
    out0_15 (F := Ideal) x0 x1 x2 x3 x4 x5 x6 x7 x8 x9 x10 x11 x12 x13 (ix2 p c)
      = (∑ q : Fin 32, (dense (fun k => hid (rowIn x0 x1 x2 p) (fun j => x8 (ix2 j k)) (x9 (ix1 k))) (fun k => x10 (ix2 k q)) (x11 (ix1 q))
              * Ideal.cos (x3 (ix2 p (0 : Fin 1)))) * x12 (ix2 q c))
        + (∑ q : Fin 32, (dense (fun k => hid (rowIn x0 x1 x2 p) (fun j => x8 (ix2 j k)) (x9 (ix1 k))) (fun k => x10 (ix2 k q)) (x11 (ix1 q))
              * Ideal.sin (x3 (ix2 p (0 : Fin 1)))) * x13 (ix2 q c)) := by
  unfold out0_15
  rw [View.canon_unit_zero hz2, pay1_apply]
  have hamp : ∀ q : Fin 32, k0_pay10 (F := Ideal) (View.ld x2 r0_1) (k0_pay5 (View.ld x0 r0_0)) (k0_pay6 (View.ld x1 r0_0)) (k0_pay7 (View.ld x0 r0_0) (View.ld x1 r0_0))
        (View.ld x8 r0_2) (View.ld x8 r0_3) (View.ld x8 r0_4) (View.ld x8 r0_5) (View.ld x9 r0_6) (View.ld x10 r0_9) (View.ld x11 r0_10) (ix2 p q)
      = dense (fun k => hid (rowIn x0 x1 x2 p) (fun j => x8 (ix2 j k)) (x9 (ix1 k))) (fun k => x10 (ix2 k q)) (x11 (ix1 q)) := by
    intro q
    rw [pay10_apply]
    have hh : (fun k : Fin 128 => hid3 (fun j => k0_pay5 (F := Ideal) (View.ld x0 r0_0) (ix2 p j)) (fun j => k0_pay6 (F := Ideal) (View.ld x1 r0_0) (ix2 p j))
          (fun j => k0_pay7 (F := Ideal) (View.ld x0 r0_0) (View.ld x1 r0_0) (ix2 p j)) (View.ld x2 r0_1 (ix2 p (0 : Fin 1)))
          (fun j => View.ld x8 r0_2 (ix2 j k)) (fun j => View.ld x8 r0_3 (ix2 j k)) (fun j => View.ld x8 r0_4 (ix2 j k))
          (View.ld x8 r0_5 (ix2 (0 : Fin 1) k)) (View.ld x9 r0_6 (ix1 k)))
        = fun k => hid (rowIn x0 x1 x2 p) (fun j => x8 (ix2 j k)) (x9 (ix1 k)) := by
      funext k
      rw [rowIn, hid_cat]
      simp only [pay5_apply, pay6_apply, pay7_apply, View.ld, idx_r0, idx_r1, idx_r6, idx_ra, idx_rb, idx_rd, idx_rl]
    rw [hh]
    simp only [View.ld, idx_r9, idx_r10]
  simp only [hamp]
  simp only [pay11_apply, pay4_apply, View.ld, idx_r1, idx_r11]

end Cert.KernelIdeal.Out

end
-- ==== Proof.KValue.lean ====
/-
  The two output arrays after the kernel's run, read at one index.

  The grid has 400 points; point `t` works on edges `2000 t … 2000 t + 1999`: its blocks of the two feature
  arrays, of the lengths and of the angles are rows `2000 t + p` of those arrays, every weight block is the
  whole weight array, and it writes rows `2000 t + p` of both outputs. The 400 row ranges tile the 800000
  rows, so every entry of an output array is written by exactly the point `e / 2000`, from row `e` of the
  inputs alone: entry `(e, q)` of an output is the row function of the specification at edge `e`.
-/
import proofs.«426144_j18451179504417_1_alg».proof.Proof.Gen.KernelIdeal.Frame
import proofs.«426144_j18451179504417_1_alg».proof.Proof.KOut
import Idealize.ShloMosaic.Lib.Pipeline.Value

set_option maxRecDepth 16384

noncomputable section

namespace Cert.KernelIdeal.KValue

open Cert.KernelIdeal Cert.KernelIdeal.Gen Cert.KernelIdeal.Out Cert.EdgeRow
open Idealize.ShloMosaic Idealize.ShloMosaic.TcCoe Idealize.ShloMosaic.ValueIdx Idealize.SL.Sem
open Idealize.ShloMosaic.Pipeline (Dat Cfg Window)
open scoped BigOperators

variable (m : (ℓ : Loc nD τ sig) → Buf (Elt Ideal) ℓ)

/-! ## The arrays as the region finds them, each at its literal type -/

abbrev aFi (c : Dev nD) : Vec Ideal S800000x64 .f32 := V m c main_v4
abbrev aFj (c : Dev nD) : Vec Ideal S800000x64 .f32 := V m c main_v5
abbrev aLen (c : Dev nD) : Vec Ideal S800000x1 .f32 := V m c main_arg1
abbrev aTheta (c : Dev nD) : Vec Ideal S800000x1 .f32 := V m c main_v6
abbrev aW1s (c : Dev nD) : Vec Ideal S193x128 .f32 := V m c main_arg4
abbrev aB1s (c : Dev nD) : Vec Ideal S128 .f32 := V m c main_arg5
abbrev aW2s (c : Dev nD) : Vec Ideal S128x64 .f32 := V m c main_arg6
abbrev aB2s (c : Dev nD) : Vec Ideal S64 .f32 := V m c main_arg7
abbrev aW1v (c : Dev nD) : Vec Ideal S193x128 .f32 := V m c main_arg8
abbrev aB1v (c : Dev nD) : Vec Ideal S128 .f32 := V m c main_arg9
abbrev aW2v (c : Dev nD) : Vec Ideal S128x32 .f32 := V m c main_arg10
abbrev aB2v (c : Dev nD) : Vec Ideal S32 .f32 := V m c main_arg11
abbrev aEven (c : Dev nD) : Vec Ideal S32x64 .f32 := V m c main_cst
abbrev aOdd (c : Dev nD) : Vec Ideal S32x64 .f32 := V m c main_cst_0

/-- The 193 inputs of edge `e`: the two gathered feature rows, their absolute difference, the edge's length. -/
def rowInV (c : Dev nD) (e : Fin 800000) : Fin 193 → EReal :=
  cat (fun j => aFi m c (ix2 e j)) (fun j => aFj m c (ix2 e j))
    (fun j => absE (aFi m c (ix2 e j) - aFj m c (ix2 e j))) (aLen m c (ix2 e (0 : Fin 1)))

/-- An amplitude of edge `e`: the vector perceptron's output `q`. -/
def ampV (c : Dev nD) (e : Fin 800000) (q : Fin 32) : EReal :=
  dense (fun k => hid (rowInV m c e) (fun j => aW1v m c (ix2 j k)) (aB1v m c (ix1 k)))
    (fun k => aW2v m c (ix2 k q)) (aB2v m c (ix1 q))

/-! ## The grid and the index maps

The grid has 400 points. The block index of the two feature windows, of the lengths, of the angles and of the two
outputs at point `t` is `(t, 0)`; every weight window's block index is zero on every axis. -/

theorem N_eq : cfg0.N = 400 := by decide

theorem idx_0 : ∀ t : Fin cfg0.N, win0_0.index t (0 : Fin 2) = t.val ∧ win0_0.index t (1 : Fin 2) = 0 :=
  (by decide +kernel : ∀ t : Fin grid0.N, _)
theorem idx_1 : ∀ t : Fin cfg0.N, win0_1.index t (0 : Fin 2) = t.val ∧ win0_1.index t (1 : Fin 2) = 0 :=
  (by decide +kernel : ∀ t : Fin grid0.N, _)
theorem idx_2 : ∀ t : Fin cfg0.N, win0_2.index t (0 : Fin 2) = t.val ∧ win0_2.index t (1 : Fin 2) = 0 :=
  (by decide +kernel : ∀ t : Fin grid0.N, _)
theorem idx_3 : ∀ t : Fin cfg0.N, win0_3.index t (0 : Fin 2) = t.val ∧ win0_3.index t (1 : Fin 2) = 0 :=
  (by decide +kernel : ∀ t : Fin grid0.N, _)
theorem idx_14 : ∀ t : Fin cfg0.N, win0_14.index t (0 : Fin 2) = t.val ∧ win0_14.index t (1 : Fin 2) = 0 :=
  (by decide +kernel : ∀ t : Fin grid0.N, _)
theorem idx_15 : ∀ t : Fin cfg0.N, win0_15.index t (0 : Fin 2) = t.val ∧ win0_15.index t (1 : Fin 2) = 0 :=
  (by decide +kernel : ∀ t : Fin grid0.N, _)
theorem idx_4 : ∀ t : Fin cfg0.N, win0_4.index t (0 : Fin 2) = 0 ∧ win0_4.index t (1 : Fin 2) = 0 :=
  (by decide +kernel : ∀ t : Fin grid0.N, _)
theorem idx_5 : ∀ t : Fin cfg0.N, win0_5.index t (0 : Fin 1) = 0 :=
  (by decide +kernel : ∀ t : Fin grid0.N, _)
theorem idx_6 : ∀ t : Fin cfg0.N, win0_6.index t (0 : Fin 2) = 0 ∧ win0_6.index t (1 : Fin 2) = 0 :=
  (by decide +kernel : ∀ t : Fin grid0.N, _)
theorem idx_7 : ∀ t : Fin cfg0.N, win0_7.index t (0 : Fin 1) = 0 :=
  (by decide +kernel : ∀ t : Fin grid0.N, _)
theorem idx_8 : ∀ t : Fin cfg0.N, win0_8.index t (0 : Fin 2) = 0 ∧ win0_8.index t (1 : Fin 2) = 0 :=
  (by decide +kernel : ∀ t : Fin grid0.N, _)
theorem idx_9 : ∀ t : Fin cfg0.N, win0_9.index t (0 : Fin 1) = 0 :=
  (by decide +kernel : ∀ t : Fin grid0.N, _)
theorem idx_10 : ∀ t : Fin cfg0.N, win0_10.index t (0 : Fin 2) = 0 ∧ win0_10.index t (1 : Fin 2) = 0 :=
  (by decide +kernel : ∀ t : Fin grid0.N, _)
theorem idx_11 : ∀ t : Fin cfg0.N, win0_11.index t (0 : Fin 1) = 0 :=
  (by decide +kernel : ∀ t : Fin grid0.N, _)
theorem idx_12 : ∀ t : Fin cfg0.N, win0_12.index t (0 : Fin 2) = 0 ∧ win0_12.index t (1 : Fin 2) = 0 :=
  (by decide +kernel : ∀ t : Fin grid0.N, _)
theorem idx_13 : ∀ t : Fin cfg0.N, win0_13.index t (0 : Fin 2) = 0 ∧ win0_13.index t (1 : Fin 2) = 0 :=
  (by decide +kernel : ∀ t : Fin grid0.N, _)

/-- Row `p` of point `t`'s block is row `2000 t + p` of the array. -/
def row (t : Fin cfg0.N) (p : Fin 2000) : Fin 800000 :=
  ⟨2000 * t.val + p.val, by have h : t.val < 400 := lt_of_lt_of_eq t.isLt N_eq; have := p.isLt; omega⟩

theorem row_val (t : Fin cfg0.N) (p : Fin 2000) : (row t p).val = 2000 * t.val + p.val := rfl

/-! ## Each window's block read off an array

A block's coordinate on an axis is the block index times the block's extent plus the coordinate inside the block. -/

theorem read_blk0 (A : Vec Ideal S800000x64 .f32) (t : Fin cfg0.N) (p : Fin 2000) (j : Fin 64) :
    (((cfg0.win 0).blk t).view.read (Elt Ideal) A : Vec Ideal S2000x64 .f32) (ix2 p j) = A (ix2 (row t p) j) := by
  obtain ⟨e0, e1⟩ := idx_0 t
  show A (((cfg0.win 0).blk t).view.emb (ix2 p j)) = A (ix2 (row t p) j)
  refine congrArg A ?_
  funext a; apply Fin.ext
  match a with
  | ⟨0, _⟩ => show win0_0.index t (0 : Fin 2) * 2000 + 1 * p.val = 2000 * t.val + p.val; omega
  | ⟨1, _⟩ => show win0_0.index t (1 : Fin 2) * 64 + 1 * j.val = j.val; omega

theorem read_blk1 (A : Vec Ideal S800000x64 .f32) (t : Fin cfg0.N) (p : Fin 2000) (j : Fin 64) :
    (((cfg0.win 1).blk t).view.read (Elt Ideal) A : Vec Ideal S2000x64 .f32) (ix2 p j) = A (ix2 (row t p) j) := by
  obtain ⟨e0, e1⟩ := idx_1 t
  show A (((cfg0.win 1).blk t).view.emb (ix2 p j)) = A (ix2 (row t p) j)
  refine congrArg A ?_
  funext a; apply Fin.ext
  match a with
  | ⟨0, _⟩ => show win0_1.index t (0 : Fin 2) * 2000 + 1 * p.val = 2000 * t.val + p.val; omega
  | ⟨1, _⟩ => show win0_1.index t (1 : Fin 2) * 64 + 1 * j.val = j.val; omega

theorem read_blk2 (A : Vec Ideal S800000x1 .f32) (t : Fin cfg0.N) (p : Fin 2000) (j : Fin 1) :
    (((cfg0.win 2).blk t).view.read (Elt Ideal) A : Vec Ideal S2000x1 .f32) (ix2 p j) = A (ix2 (row t p) j) := by
  obtain ⟨e0, e1⟩ := idx_2 t
  show A (((cfg0.win 2).blk t).view.emb (ix2 p j)) = A (ix2 (row t p) j)
  refine congrArg A ?_
  funext a; apply Fin.ext
  match a with
  | ⟨0, _⟩ => show win0_2.index t (0 : Fin 2) * 2000 + 1 * p.val = 2000 * t.val + p.val; omega
  | ⟨1, _⟩ => show win0_2.index t (1 : Fin 2) * 1 + 1 * j.val = j.val; omega

theorem read_blk3 (A : Vec Ideal S800000x1 .f32) (t : Fin cfg0.N) (p : Fin 2000) (j : Fin 1) :
    (((cfg0.win 3).blk t).view.read (Elt Ideal) A : Vec Ideal S2000x1 .f32) (ix2 p j) = A (ix2 (row t p) j) := by
  obtain ⟨e0, e1⟩ := idx_3 t
  show A (((cfg0.win 3).blk t).view.emb (ix2 p j)) = A (ix2 (row t p) j)
  refine congrArg A ?_
  funext a; apply Fin.ext
  match a with
  | ⟨0, _⟩ => show win0_3.index t (0 : Fin 2) * 2000 + 1 * p.val = 2000 * t.val + p.val; omega
  | ⟨1, _⟩ => show win0_3.index t (1 : Fin 2) * 1 + 1 * j.val = j.val; omega

theorem read_blk4 (A : Vec Ideal S193x128 .f32) (t : Fin cfg0.N) (j : Fin 193) (k : Fin 128) :
    (((cfg0.win 4).blk t).view.read (Elt Ideal) A : Vec Ideal S193x128 .f32) (ix2 j k) = A (ix2 j k) := by
  obtain ⟨e0, e1⟩ := idx_4 t
  show A (((cfg0.win 4).blk t).view.emb (ix2 j k)) = A (ix2 j k)
  refine congrArg A ?_
  funext a; apply Fin.ext
  match a with
  | ⟨0, _⟩ => show win0_4.index t (0 : Fin 2) * 193 + 1 * j.val = j.val; omega
  | ⟨1, _⟩ => show win0_4.index t (1 : Fin 2) * 128 + 1 * k.val = k.val; omega

theorem read_blk5 (A : Vec Ideal S128 .f32) (t : Fin cfg0.N) (k : Fin 128) :
    (((cfg0.win 5).blk t).view.read (Elt Ideal) A : Vec Ideal S128 .f32) (ix1 k) = A (ix1 k) := by
  have e0 := idx_5 t
  show A (((cfg0.win 5).blk t).view.emb (ix1 k)) = A (ix1 k)
  refine congrArg A ?_
  funext a; apply Fin.ext
  match a with
  | ⟨0, _⟩ => show win0_5.index t (0 : Fin 1) * 128 + 1 * k.val = k.val; omega

theorem read_blk6 (A : Vec Ideal S128x64 .f32) (t : Fin cfg0.N) (j : Fin 128) (k : Fin 64) :
    (((cfg0.win 6).blk t).view.read (Elt Ideal) A : Vec Ideal S128x64 .f32) (ix2 j k) = A (ix2 j k) := by
  obtain ⟨e0, e1⟩ := idx_6 t
  show A (((cfg0.win 6).blk t).view.emb (ix2 j k)) = A (ix2 j k)
  refine congrArg A ?_
  funext a; apply Fin.ext
  match a with
  | ⟨0, _⟩ => show win0_6.index t (0 : Fin 2) * 128 + 1 * j.val = j.val; omega
  | ⟨1, _⟩ => show win0_6.index t (1 : Fin 2) * 64 + 1 * k.val = k.val; omega

theorem read_blk7 (A : Vec Ideal S64 .f32) (t : Fin cfg0.N) (k : Fin 64) :
    (((cfg0.win 7).blk t).view.read (Elt Ideal) A : Vec Ideal S64 .f32) (ix1 k) = A (ix1 k) := by
  have e0 := idx_7 t
  show A (((cfg0.win 7).blk t).view.emb (ix1 k)) = A (ix1 k)
  refine congrArg A ?_
  funext a; apply Fin.ext
  match a with
  | ⟨0, _⟩ => show win0_7.index t (0 : Fin 1) * 64 + 1 * k.val = k.val; omega

theorem read_blk8 (A : Vec Ideal S193x128 .f32) (t : Fin cfg0.N) (j : Fin 193) (k : Fin 128) :
    (((cfg0.win 8).blk t).view.read (Elt Ideal) A : Vec Ideal S193x128 .f32) (ix2 j k) = A (ix2 j k) := by
  obtain ⟨e0, e1⟩ := idx_8 t
  show A (((cfg0.win 8).blk t).view.emb (ix2 j k)) = A (ix2 j k)
  refine congrArg A ?_
  funext a; apply Fin.ext
  match a with
  | ⟨0, _⟩ => show win0_8.index t (0 : Fin 2) * 193 + 1 * j.val = j.val; omega
  | ⟨1, _⟩ => show win0_8.index t (1 : Fin 2) * 128 + 1 * k.val = k.val; omega

theorem read_blk9 (A : Vec Ideal S128 .f32) (t : Fin cfg0.N) (k : Fin 128) :
    (((cfg0.win 9).blk t).view.read (Elt Ideal) A : Vec Ideal S128 .f32) (ix1 k) = A (ix1 k) := by
  have e0 := idx_9 t
  show A (((cfg0.win 9).blk t).view.emb (ix1 k)) = A (ix1 k)
  refine congrArg A ?_
  funext a; apply Fin.ext
  match a with
  | ⟨0, _⟩ => show win0_9.index t (0 : Fin 1) * 128 + 1 * k.val = k.val; omega

theorem read_blk10 (A : Vec Ideal S128x32 .f32) (t : Fin cfg0.N) (j : Fin 128) (k : Fin 32) :
    (((cfg0.win 10).blk t).view.read (Elt Ideal) A : Vec Ideal S128x32 .f32) (ix2 j k) = A (ix2 j k) := by
  obtain ⟨e0, e1⟩ := idx_10 t
  show A (((cfg0.win 10).blk t).view.emb (ix2 j k)) = A (ix2 j k)
  refine congrArg A ?_
  funext a; apply Fin.ext
  match a with
  | ⟨0, _⟩ => show win0_10.index t (0 : Fin 2) * 128 + 1 * j.val = j.val; omega
  | ⟨1, _⟩ => show win0_10.index t (1 : Fin 2) * 32 + 1 * k.val = k.val; omega

theorem read_blk11 (A : Vec Ideal S32 .f32) (t : Fin cfg0.N) (k : Fin 32) :
    (((cfg0.win 11).blk t).view.read (Elt Ideal) A : Vec Ideal S32 .f32) (ix1 k) = A (ix1 k) := by
  have e0 := idx_11 t
  show A (((cfg0.win 11).blk t).view.emb (ix1 k)) = A (ix1 k)
  refine congrArg A ?_
  funext a; apply Fin.ext
  match a with
  | ⟨0, _⟩ => show win0_11.index t (0 : Fin 1) * 32 + 1 * k.val = k.val; omega

theorem read_blk12 (A : Vec Ideal S32x64 .f32) (t : Fin cfg0.N) (j : Fin 32) (k : Fin 64) :
    (((cfg0.win 12).blk t).view.read (Elt Ideal) A : Vec Ideal S32x64 .f32) (ix2 j k) = A (ix2 j k) := by
  obtain ⟨e0, e1⟩ := idx_12 t
  show A (((cfg0.win 12).blk t).view.emb (ix2 j k)) = A (ix2 j k)
  refine congrArg A ?_
  funext a; apply Fin.ext
  match a with
  | ⟨0, _⟩ => show win0_12.index t (0 : Fin 2) * 32 + 1 * j.val = j.val; omega
  | ⟨1, _⟩ => show win0_12.index t (1 : Fin 2) * 64 + 1 * k.val = k.val; omega

theorem read_blk13 (A : Vec Ideal S32x64 .f32) (t : Fin cfg0.N) (j : Fin 32) (k : Fin 64) :
    (((cfg0.win 13).blk t).view.read (Elt Ideal) A : Vec Ideal S32x64 .f32) (ix2 j k) = A (ix2 j k) := by
  obtain ⟨e0, e1⟩ := idx_13 t
  show A (((cfg0.win 13).blk t).view.emb (ix2 j k)) = A (ix2 j k)
  refine congrArg A ?_
  funext a; apply Fin.ext
  match a with
  | ⟨0, _⟩ => show win0_13.index t (0 : Fin 2) * 32 + 1 * j.val = j.val; omega
  | ⟨1, _⟩ => show win0_13.index t (1 : Fin 2) * 64 + 1 * k.val = k.val; omega

/-! ## Each input block at an index, as an entry of its array -/

theorem iblk0_apply (c : Dev nD) (t : Fin cfg0.N) (p : Fin 2000) (j : Fin 64) :
    (iblk m c 0 t : Vec Ideal S2000x64 .f32) (ix2 p j) = aFi m c (ix2 (row t p) j) := by
  unfold iblk
  exact read_blk0 (V m c main_v4) t p j

theorem iblk1_apply (c : Dev nD) (t : Fin cfg0.N) (p : Fin 2000) (j : Fin 64) :
    (iblk m c 1 t : Vec Ideal S2000x64 .f32) (ix2 p j) = aFj m c (ix2 (row t p) j) := by
  unfold iblk
  exact read_blk1 (V m c main_v5) t p j

theorem iblk2_apply (c : Dev nD) (t : Fin cfg0.N) (p : Fin 2000) (j : Fin 1) :
    (iblk m c 2 t : Vec Ideal S2000x1 .f32) (ix2 p j) = aLen m c (ix2 (row t p) j) := by
  unfold iblk
  exact read_blk2 (V m c main_arg1) t p j

theorem iblk3_apply (c : Dev nD) (t : Fin cfg0.N) (p : Fin 2000) (j : Fin 1) :
    (iblk m c 3 t : Vec Ideal S2000x1 .f32) (ix2 p j) = aTheta m c (ix2 (row t p) j) := by
  unfold iblk
  exact read_blk3 (V m c main_v6) t p j

theorem iblk4_apply (c : Dev nD) (t : Fin cfg0.N) (j : Fin 193) (k : Fin 128) :
    (iblk m c 4 t : Vec Ideal S193x128 .f32) (ix2 j k) = aW1s m c (ix2 j k) := by
  unfold iblk
  exact read_blk4 (V m c main_arg4) t j k

theorem iblk5_apply (c : Dev nD) (t : Fin cfg0.N) (k : Fin 128) :
    (iblk m c 5 t : Vec Ideal S128 .f32) (ix1 k) = aB1s m c (ix1 k) := by
  unfold iblk
  exact read_blk5 (V m c main_arg5) t k

theorem iblk6_apply (c : Dev nD) (t : Fin cfg0.N) (j : Fin 128) (k : Fin 64) :
    (iblk m c 6 t : Vec Ideal S128x64 .f32) (ix2 j k) = aW2s m c (ix2 j k) := by
  unfold iblk
  exact read_blk6 (V m c main_arg6) t j k

theorem iblk7_apply (c : Dev nD) (t : Fin cfg0.N) (k : Fin 64) :
    (iblk m c 7 t : Vec Ideal S64 .f32) (ix1 k) = aB2s m c (ix1 k) := by
  unfold iblk
  exact read_blk7 (V m c main_arg7) t k

theorem iblk8_apply (c : Dev nD) (t : Fin cfg0.N) (j : Fin 193) (k : Fin 128) :
    (iblk m c 8 t : Vec Ideal S193x128 .f32) (ix2 j k) = aW1v m c (ix2 j k) := by
  unfold iblk
  exact read_blk8 (V m c main_arg8) t j k

theorem iblk9_apply (c : Dev nD) (t : Fin cfg0.N) (k : Fin 128) :
    (iblk m c 9 t : Vec Ideal S128 .f32) (ix1 k) = aB1v m c (ix1 k) := by
  unfold iblk
  exact read_blk9 (V m c main_arg9) t k

theorem iblk10_apply (c : Dev nD) (t : Fin cfg0.N) (j : Fin 128) (k : Fin 32) :
    (iblk m c 10 t : Vec Ideal S128x32 .f32) (ix2 j k) = aW2v m c (ix2 j k) := by
  unfold iblk
  exact read_blk10 (V m c main_arg10) t j k

theorem iblk11_apply (c : Dev nD) (t : Fin cfg0.N) (k : Fin 32) :
    (iblk m c 11 t : Vec Ideal S32 .f32) (ix1 k) = aB2v m c (ix1 k) := by
  unfold iblk
  exact read_blk11 (V m c main_arg11) t k

theorem iblk12_apply (c : Dev nD) (t : Fin cfg0.N) (j : Fin 32) (k : Fin 64) :
    (iblk m c 12 t : Vec Ideal S32x64 .f32) (ix2 j k) = aEven m c (ix2 j k) := by
  unfold iblk
  exact read_blk12 (V m c main_cst) t j k

theorem iblk13_apply (c : Dev nD) (t : Fin cfg0.N) (j : Fin 32) (k : Fin 64) :
    (iblk m c 13 t : Vec Ideal S32x64 .f32) (ix2 j k) = aOdd m c (ix2 j k) := by
  unfold iblk
  exact read_blk13 (V m c main_cst_0) t j k

/-! ## What a point writes back -/

/-- The scalar output array as one function of the arrays the region finds: entry `(e, q)` is the scalar
    perceptron of edge `e` at output `q`. -/
def G14 (c : Dev nD) : Vec Ideal S800000x64 .f32 := fun i =>
  dense (fun k => hid (rowInV m c (i 0)) (fun j => aW1s m c (ix2 j k)) (aB1s m c (ix1 k)))
    (fun k => aW2s m c (ix2 k (i 1))) (aB2s m c (ix1 (i 1)))

/-- The interleaved vector output array as one function of the arrays the region finds. -/
def G15 (c : Dev nD) : Vec Ideal S800000x64 .f32 := fun i =>
  (∑ q : Fin 32, (ampV m c (i 0) q * Ideal.cos (aTheta m c (ix2 (i 0) (0 : Fin 1)))) * aEven m c (ix2 q (i 1)))
    + (∑ q : Fin 32, (ampV m c (i 0) q * Ideal.sin (aTheta m c (ix2 (i 0) (0 : Fin 1)))) * aOdd m c (ix2 q (i 1)))

/-- The 193 inputs of row `p` of point `t`'s blocks are those of edge `2000 t + p`. -/
theorem rowIn_point (c : Dev nD) (t : Fin cfg0.N) (p : Fin 2000) :
    rowIn (iblk m c 0 t) (iblk m c 1 t) (iblk m c 2 t) p = rowInV m c (row t p) := by
  unfold rowIn rowInV
  simp only [iblk0_apply, iblk1_apply, iblk2_apply]

/-- Entry `(p, q)` of the scalar block point `t` computes is entry `(2000 t + p, q)` of `G14`. -/
theorem out14_point (c : Dev nD) (t : Fin cfg0.N) (p : Fin 2000) (q : Fin 64) :
    out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 p q) = G14 m c (ix2 (row t p) q) := by
  refine (out14_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p q).trans ?_
  rw [rowIn_point]
  simp only [iblk4_apply, iblk5_apply, iblk6_apply, iblk7_apply]
  rfl

/-- Entry `(p, q)` of the vector block point `t` computes is entry `(2000 t + p, q)` of `G15`. -/
theorem out15_point (c : Dev nD) (t : Fin cfg0.N) (p : Fin 2000) (q : Fin 64) :
    out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 p q) = G15 m c (ix2 (row t p) q) := by
  refine (out15_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p q).trans ?_
  rw [rowIn_point]
  simp only [iblk3_apply, iblk8_apply, iblk9_apply, iblk10_apply, iblk11_apply, iblk12_apply, iblk13_apply]
  rfl

/-! ## From the blocks to the arrays

The 400 blocks of 2000 rows tile the 800000 rows: row `e` lies in the block of point `e / 2000`. -/

/-- If a block `X` is, entry by entry, rows `2000 t + p` of an array `A`, then what point `t` writes back of `X`
    through output window 14 is block `t` of `A`. -/
theorem cut14_eq_read (X : Vec Ideal S2000x64 .f32) (A : Vec Ideal S800000x64 .f32) (t : Fin cfg0.N)
    (h : ∀ (p : Fin 2000) (q : Fin 64), X (ix2 p q) = A (ix2 (row t p) q)) :
    (cfg0.win 14).cut (grid0.coords t) X = ((cfg0.win 14).blk t).view.read (Elt Ideal) A := by
  obtain ⟨e0, e1⟩ := idx_14 t
  funext y
  have hy : (cfg0.win 14).xinj (grid0.coords t) y = @ix2 2000 64 (y 0) (y 1) := by
    funext a
    match a with
    | ⟨0, _⟩ => rfl
    | ⟨1, _⟩ => rfl
  show X ((cfg0.win 14).xinj (grid0.coords t) y) = A (((cfg0.win 14).blk t).view.emb y)
  rw [hy]
  refine (h (y 0) (y 1)).trans ?_
  refine congrArg A ?_
  funext a; apply Fin.ext
  match a with
  | ⟨0, _⟩ => show 2000 * t.val + (y 0).val = win0_14.index t (0 : Fin 2) * 2000 + 1 * (y 0).val; omega
  | ⟨1, _⟩ => show (y 1).val = win0_14.index t (1 : Fin 2) * 64 + 1 * (y 1).val; omega

/-- What point `t` writes back to output window 14 is block `t` of `G14`. -/
theorem flushed14_eq (c : Dev nD) (t : Fin cfg0.N) :
    (dats m 0 c).flushed 14 t = ((cfg0.win 14).blk t).view.read (Elt Ideal) (G14 m c) := by
  show (cfg0.win 14).cut (grid0.coords t) ((dats m 0 c).after 14 t) = _
  rw [after0_14]
  exact cut14_eq_read _ (G14 m c) t (out14_point m c t)

/-- An index of the array is in point `t`'s block iff each coordinate is in the block's range on its axis. -/
theorem mem_blk14 (t : Fin cfg0.N) (i : S800000x64.Idx) :
    i ∈ ((cfg0.win 14).blk t).view.set ↔ ∀ a : Fin 2, win0_14.index t a * S2000x64.size a ≤ (i a).val ∧ (i a).val < win0_14.index t a * S2000x64.size a + S2000x64.size a := by
  show i ∈ ((View.whole main_v7_0).slice (win0_14.rect t)).set ↔ _
  rw [View.set_slice_whole, Rect.mem_set_unit]
  exact Iff.rfl

/-- Row `e` of the array is in the block of point `e / 2000`. -/
theorem cover14 (i : S800000x64.Idx) :
    ∃ t : Fin cfg0.N, (cfg0.win 14).flush t = true ∧ i ∈ ((cfg0.win 14).blk t).view.set := by
  have hi0 : (i 0).val < 800000 := (i 0).isLt
  have hi1 : (i 1).val < 64 := (i 1).isLt
  obtain ⟨t, ht⟩ : ∃ t : Fin cfg0.N, t.val = (i 0).val / 2000 :=
    ⟨⟨(i 0).val / 2000, lt_of_lt_of_eq (by omega : (i 0).val / 2000 < 400) N_eq.symm⟩, rfl⟩
  obtain ⟨e0, e1⟩ := idx_14 t
  refine ⟨t, flush0_14 t, ?_⟩
  rw [mem_blk14]
  intro a
  match a with
  | ⟨0, _⟩ => show win0_14.index t (0 : Fin 2) * 2000 ≤ (i 0).val ∧ (i 0).val < win0_14.index t (0 : Fin 2) * 2000 + 2000; omega
  | ⟨1, _⟩ => show win0_14.index t (1 : Fin 2) * 64 ≤ (i 1).val ∧ (i 1).val < win0_14.index t (1 : Fin 2) * 64 + 64; omega

/-- The array after the run is `G14`. -/
theorem final14 (c : Dev nD) : (dats m 0 c).arrAt 14 cfg0.N = G14 m c :=
  (dats m 0 c).arrAt_eq_of_cover 14 (G14 m c) (fun t _ => flushed14_eq m c t) cover14

/-- If a block `X` is, entry by entry, rows `2000 t + p` of an array `A`, then what point `t` writes back of `X`
    through output window 15 is block `t` of `A`. -/
theorem cut15_eq_read (X : Vec Ideal S2000x64 .f32) (A : Vec Ideal S800000x64 .f32) (t : Fin cfg0.N)
    (h : ∀ (p : Fin 2000) (q : Fin 64), X (ix2 p q) = A (ix2 (row t p) q)) :
    (cfg0.win 15).cut (grid0.coords t) X = ((cfg0.win 15).blk t).view.read (Elt Ideal) A := by
  obtain ⟨e0, e1⟩ := idx_15 t
  funext y
  have hy : (cfg0.win 15).xinj (grid0.coords t) y = @ix2 2000 64 (y 0) (y 1) := by
    funext a
    match a with
    | ⟨0, _⟩ => rfl
    | ⟨1, _⟩ => rfl
  show X ((cfg0.win 15).xinj (grid0.coords t) y) = A (((cfg0.win 15).blk t).view.emb y)
  rw [hy]
  refine (h (y 0) (y 1)).trans ?_
  refine congrArg A ?_
  funext a; apply Fin.ext
  match a with
  | ⟨0, _⟩ => show 2000 * t.val + (y 0).val = win0_15.index t (0 : Fin 2) * 2000 + 1 * (y 0).val; omega
  | ⟨1, _⟩ => show (y 1).val = win0_15.index t (1 : Fin 2) * 64 + 1 * (y 1).val; omega

/-- What point `t` writes back to output window 15 is block `t` of `G15`. -/
theorem flushed15_eq (c : Dev nD) (t : Fin cfg0.N) :
    (dats m 0 c).flushed 15 t = ((cfg0.win 15).blk t).view.read (Elt Ideal) (G15 m c) := by
  show (cfg0.win 15).cut (grid0.coords t) ((dats m 0 c).after 15 t) = _
  rw [after0_15]
  exact cut15_eq_read _ (G15 m c) t (out15_point m c t)

/-- An index of the array is in point `t`'s block iff each coordinate is in the block's range on its axis. -/
theorem mem_blk15 (t : Fin cfg0.N) (i : S800000x64.Idx) :
    i ∈ ((cfg0.win 15).blk t).view.set ↔ ∀ a : Fin 2, win0_15.index t a * S2000x64.size a ≤ (i a).val ∧ (i a).val < win0_15.index t a * S2000x64.size a + S2000x64.size a := by
  show i ∈ ((View.whole main_v7_1).slice (win0_15.rect t)).set ↔ _
  rw [View.set_slice_whole, Rect.mem_set_unit]
  exact Iff.rfl

/-- Row `e` of the array is in the block of point `e / 2000`. -/
theorem cover15 (i : S800000x64.Idx) :
    ∃ t : Fin cfg0.N, (cfg0.win 15).flush t = true ∧ i ∈ ((cfg0.win 15).blk t).view.set := by
  have hi0 : (i 0).val < 800000 := (i 0).isLt
  have hi1 : (i 1).val < 64 := (i 1).isLt
  obtain ⟨t, ht⟩ : ∃ t : Fin cfg0.N, t.val = (i 0).val / 2000 :=
    ⟨⟨(i 0).val / 2000, lt_of_lt_of_eq (by omega : (i 0).val / 2000 < 400) N_eq.symm⟩, rfl⟩
  obtain ⟨e0, e1⟩ := idx_15 t
  refine ⟨t, flush0_15 t, ?_⟩
  rw [mem_blk15]
  intro a
  match a with
  | ⟨0, _⟩ => show win0_15.index t (0 : Fin 2) * 2000 ≤ (i 0).val ∧ (i 0).val < win0_15.index t (0 : Fin 2) * 2000 + 2000; omega
  | ⟨1, _⟩ => show win0_15.index t (1 : Fin 2) * 64 ≤ (i 1).val ∧ (i 1).val < win0_15.index t (1 : Fin 2) * 64 + 64; omega

/-- The array after the run is `G15`. -/
theorem final15 (c : Dev nD) : (dats m 0 c).arrAt 15 cfg0.N = G15 m c :=
  (dats m 0 c).arrAt_eq_of_cover 15 (G15 m c) (fun t _ => flushed15_eq m c t) cover15

/-! ## The two output arrays at an index -/

/-- Entry `(e, q)` of the scalar output array after the run. -/
theorem arr14_apply (c : Dev nD) (e : Fin 800000) (q : Fin 64) :
    ((dats m 0 c).arrAt 14 cfg0.N : Vec Ideal S800000x64 .f32) (ix2 e q)
      = dense (fun k => hid (rowInV m c e) (fun j => aW1s m c (ix2 j k)) (aB1s m c (ix1 k)))
          (fun k => aW2s m c (ix2 k q)) (aB2s m c (ix1 q)) := by
  rw [final14]
  rfl

/-- Entry `(e, col)` of the interleaved vector output array after the run. -/
theorem arr15_apply (c : Dev nD) (e : Fin 800000) (col : Fin 64) :
    ((dats m 0 c).arrAt 15 cfg0.N : Vec Ideal S800000x64 .f32) (ix2 e col)
      = (∑ q : Fin 32, (ampV m c e q * Ideal.cos (aTheta m c (ix2 e (0 : Fin 1)))) * aEven m c (ix2 q col))
        + (∑ q : Fin 32, (ampV m c e q * Ideal.sin (aTheta m c (ix2 e (0 : Fin 1)))) * aOdd m c (ix2 q col)) := by
  rw [final15]
  rfl

end Cert.KernelIdeal.KValue

end
-- ==== Proof.KTail.lean ====
/-
  The vector result after the region: a reshape of the kernel's interleaved output.

  The host program reshapes the kernel's second output, 800000 rows of 64 entries, into 800000 × 32 × 2
  with the same row-major order: entry `(e, k, d)` of the result is entry `(e, 2 k + d)` of that output.
-/
import proofs.«426144_j18451179504417_1_alg».proof.Proof.Gen.KernelIdeal.Frame
import Idealize.ShloMosaic.Lib.StableHlo.Run
import Idealize.ShloMosaic.Lib.Pipeline.Value
import Idealize.ShloMosaic.Lib.ValueIdx
import Idealize.ShloMosaic.PureOps.Ideal

set_option maxRecDepth 16384

noncomputable section

namespace Cert.KernelIdeal.Tail

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ)

set_option maxHeartbeats 1000000 in
/-- The buffer the program returns second is the reshape of the second output array. -/
theorem tail_v8_eq (c : Dev nD) :
    Pipeline.afterTail₀ cfgs (dats (F := Ideal) m) 0 (V0 m) [hostOps1] c main_v8
      = shapeCast S800000x32x2 ((dats (F := Ideal) m 0 c).arrAt 15 cfg0.N) shapeCasts_S800000x64_S800000x32x2 := by
  unfold Pipeline.afterTail₀
  show StableHlo.after hostOps1 _ (Proc.devRef .tc main_v8) = _
  after_results
  have hw : Pipeline.withArrays (cfgs 0).spec c (V0 m c) (fun w => (dats (F := Ideal) m 0 c).arrAt w (cfgs 0).N) (Proc.devRef .tc main_v7_1)
      = (dats (F := Ideal) m 0 c).arrAt 15 cfg0.N :=
    Pipeline.withArrays_arr spec0 launch0.win.arr_inj c _ _ 15
  rw [hw]
  rfl

/-- Entry `(e, k, d)` of the vector result is entry `(e, 2 k + d)` of the second output array. -/
theorem tail_v8_apply (c : Dev nD) (e : Fin 800000) (k : Fin 32) (d : Fin 2) :
    (Pipeline.afterTail₀ cfgs (dats (F := Ideal) m) 0 (V0 m) [hostOps1] c main_v8 : Vec Ideal S800000x32x2 .f32) (ix3 e k d)
      = ((dats (F := Ideal) m 0 c).arrAt 15 cfg0.N : Vec Ideal S800000x64 .f32) (ix2 e (⟨2 * k.val + d.val, by omega⟩ : Fin 64)) := by
  rw [tail_v8_eq]
  refine shapeCast_apply _ _ _ _ ?_
  show ((⟨2, ![800000, 64]⟩ : Shape).rowMajor (ix2 e (⟨2 * k.val + d.val, by omega⟩ : Fin 64))).val
    = ((⟨3, ![800000, 32, 2]⟩ : Shape).rowMajor (ix3 e k d)).val
  rw [Shape.rowMajor_val_two, Shape.rowMajor_val_three]
  show e.val * 64 + (2 * k.val + d.val) = (e.val * 32 + k.val) * 2 + d.val
  omega

end Cert.KernelIdeal.Tail

end
-- ==== Proof.HostTake.lean ====
/-
  The two gathered feature arrays as the kernel's region finds them.

  Before the region the host program takes, for each of the two endpoint columns, the rows of the feature
  table the column names: it wraps a negative index by adding the table's height, tests the wrapped index
  against `0 ≤ · ≤ 49999`, gathers the rows (a gather clamps a start index into the table), and keeps the
  gathered row where the test passed, else fills the row with the pattern of a quiet NaN.
-/
import proofs.«426144_j18451179504417_1_alg».proof.Proof.Gen.KernelIdeal.Frame
import Idealize.ShloMosaic.Lib.StableHlo.Run
import Idealize.ShloMosaic.PureOps.Ideal

set_option maxRecDepth 16384

noncomputable section

namespace Cert.KernelIdeal.HostPre

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- Column 0 of the endpoints, as a vector of 800000 indices. -/
def col0 (x0 : (⟨S800000x2, .i32⟩ : BufTy).Contents (Elt Ideal)) : (⟨S800000, .i32⟩ : BufTy).Contents (Elt Ideal) :=
  shapeCast S800000 (extractStridedSlice S800000x1 ![0, 0] x0 slices_S800000x2_S800000x1_0_0) shapeCasts_S800000x1_S800000

/-- Column 1 of the endpoints. -/
def col1 (x0 : (⟨S800000x2, .i32⟩ : BufTy).Contents (Elt Ideal)) : (⟨S800000, .i32⟩ : BufTy).Contents (Elt Ideal) :=
  shapeCast S800000 (extractStridedSlice S800000x1 ![0, 1] x0 slices_S800000x2_S800000x1_0_1) shapeCasts_S800000x1_S800000

/-- The take's start indices: a negative index wrapped by the table's height, as one column. -/
def wrapIdx (idx : (⟨S800000, .i32⟩ : BufTy).Contents (Elt Ideal)) : (⟨S800000x1, .i32⟩ : BufTy).Contents (Elt Ideal) :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32))) idx)

/-- The take's bounds test of each start index: `0 ≤ w ≤ 49999`. -/
def inRange (w : (⟨S800000x1, .i32⟩ : BufTy).Contents (Elt Ideal)) : (⟨S800000, .i1⟩ : BufTy).Contents (Elt Ideal) :=
  Host.reduce IntOp.andi
    (andi (cmpi .sge w (broadcastInDim S800000x1 ![] bcast_S_S800000x1 (constantI S_ 32 0#32)))
      (cmpi .sle w (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The rows the start indices name, gathered. -/
def gathered (x3 : (⟨S50000x64, .f32⟩ : BufTy).Contents (Elt Ideal)) (w : (⟨S800000x1, .i32⟩ : BufTy).Contents (Elt Ideal)) :
    (⟨S800000x64, .f32⟩ : BufTy).Contents (Elt Ideal) :=
  Host.gather gather_S50000x64_S800000x1_S800000x64_1_0_n_n_0_1_164 x3 w

/-- The take: the gathered row where the bounds test passed, else the fill pattern. -/
def takeRows (x3 : (⟨S50000x64, .f32⟩ : BufTy).Contents (Elt Ideal)) (idx : (⟨S800000, .i32⟩ : BufTy).Contents (Elt Ideal)) :
    (⟨S800000x64, .f32⟩ : BufTy).Contents (Elt Ideal) :=
  select (broadcastInDim S800000x64 ![0] bcast_S800000_S800000x64_0 (inRange (wrapIdx idx)))
    (gathered x3 (wrapIdx idx))
    (broadcastInDim S800000x64 ![] bcast_S_S800000x64 (constant (F := Ideal) S_ .f32 0x7FC00000#32))

set_option maxHeartbeats 4000000 in
/-- The first feature array the region finds is the take along endpoint column 0. -/
theorem V_v4 (c : Dev nD) :
    V (F := Ideal) m c main_v4 = takeRows (m ((c : Thread nD τ).loc main_arg3)) (col0 (m ((c : Thread nD τ).loc main_arg0))) := by
  dsimp only [Gen.V, Gen.V0]
  simp only [hostOps0, hostOps0_1, hostOps0_2, hostOps0_3, List.flatten_cons, List.flatten_nil, List.append_nil, List.cons_append, List.nil_append]
  after_results_simp
  simp only [TRef.toBuf, TRef.ofBuf, cast_eq]
  rfl

end Cert.KernelIdeal.HostPre

end
-- ==== Proof.HostTakeB.lean ====
/-
  The second gathered feature array as the kernel's region finds it: the take along endpoint column 1.
-/
import proofs.«426144_j18451179504417_1_alg».proof.Proof.HostTake

set_option maxRecDepth 16384

noncomputable section

namespace Cert.KernelIdeal.HostPre

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

set_option maxHeartbeats 4000000 in
/-- The second feature array the region finds is the take along endpoint column 1. -/
theorem V_v5 (c : Dev nD) :
    V (F := Ideal) m c main_v5 = takeRows (m ((c : Thread nD τ).loc main_arg3)) (col1 (m ((c : Thread nD τ).loc main_arg0))) := by
  dsimp only [Gen.V, Gen.V0]
  simp only [hostOps0, hostOps0_1, hostOps0_2, hostOps0_3, List.flatten_cons, List.flatten_nil, List.append_nil, List.cons_append, List.nil_append]
  after_results_simp
  simp only [TRef.toBuf, TRef.ofBuf, cast_eq]
  rfl

end Cert.KernelIdeal.HostPre

end
-- ==== Proof.HostRest.lean ====
/-
  The angle column and the two selection tables as the kernel's region finds them.

  The angles reach the kernel as one column (a broadcast of the vector of 800000 angles along a new axis of
  size one); the two selection matrices are dense constants of the host program, entry `i` the float of the
  table's word at the row-major position of `i`.
-/
import proofs.«426144_j18451179504417_1_alg».proof.Proof.Gen.KernelIdeal.Frame
import Idealize.ShloMosaic.Lib.StableHlo.Run
import Idealize.ShloMosaic.PureOps.Ideal

set_option maxRecDepth 16384

noncomputable section

namespace Cert.KernelIdeal.HostPre

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

set_option maxHeartbeats 4000000 in
theorem V_v6 (c : Dev nD) :
    V (F := Ideal) m c main_v6 = broadcastInDim S800000x1 ![0] bcast_S800000_S800000x1_0 (m ((c : Thread nD τ).loc main_arg2)) := by
  dsimp only [Gen.V, Gen.V0]
  simp only [hostOps0, hostOps0_1, hostOps0_2, hostOps0_3, List.flatten_cons, List.flatten_nil, List.append_nil, List.cons_append, List.nil_append]
  after_results <;> rfl

set_option maxHeartbeats 4000000 in
theorem V_cst (c : Dev nD) :
    V (F := Ideal) m c main_cst = (fun i => FloatOps.ofBits (F := Ideal) .f32 (lit0 (S32x64.rowMajor i))) := by
  dsimp only [Gen.V, Gen.V0]
  simp only [hostOps0, hostOps0_1, hostOps0_2, hostOps0_3, List.flatten_cons, List.flatten_nil, List.append_nil, List.cons_append, List.nil_append]
  after_results <;> rfl

set_option maxHeartbeats 4000000 in
theorem V_cst_0 (c : Dev nD) :
    V (F := Ideal) m c main_cst_0 = (fun i => FloatOps.ofBits (F := Ideal) .f32 (lit1 (S32x64.rowMajor i))) := by
  dsimp only [Gen.V, Gen.V0]
  simp only [hostOps0, hostOps0_1, hostOps0_2, hostOps0_3, List.flatten_cons, List.flatten_nil, List.append_nil, List.cons_append, List.nil_append]
  after_results <;> rfl

end Cert.KernelIdeal.HostPre

end
-- ==== Proof.PreIdx.lean ====
/-
  What the precondition says about the endpoint indices, and what follows for the bounds mask.

  The precondition's last conjunct is `-50000 ≤ endpoints < 50000` for every entry, as signed 32-bit
  words. An index `x` in that range, wrapped the way the take does it (`x + 50000` when `x < 0`, else
  `x`), lies in `[0, 49999]`: the sum does not overflow, so it is the integer sum. Hence both of the
  take's bounds tests answer one at every entry; and a reduction by `and` of an array of ones, from a one, is one.
-/
import proofs.«426144_j18451179504417_1_alg».proof.Defs
import Idealize.ShloMosaic.Lib.ValueIdx
import Idealize.ShloMosaic.Lib.ReduceAll
import Idealize.ShloMosaic.Lib.WordArith
import Idealize.ShloMosaic.Lib.StableHlo.Predicate

noncomputable section

namespace Cert.PreIdx

open Idealize.ShloMosaic Idealize.ShloMosaic.ValueIdx Idealize.SL.Sem

/-- A word whose signed value lies in `[0, 49999]` passes both bounds tests. -/
private theorem bounds_ok (y : BitVec 32) (hy0 : 0 ≤ y.toInt) (hy1 : y.toInt ≤ 49999) :
    IntOp.andi (IntOp.cmpi .sge y 0#32) (IntOp.cmpi .sle y 49999#32) = 1#1 := by
  have h0 : (0#32).toInt = 0 := by decide
  have hm : (49999#32).toInt = 49999 := by decide
  show IntOp.andi (BitVec.ofBool ((0#32).sle y)) (BitVec.ofBool (y.sle 49999#32)) = 1#1
  rw [WordArith.andi_ofBool, WordArith.ofBool_eq_one_iff, Bool.and_eq_true, BitVec.sle_iff_toInt_le,
    BitVec.sle_iff_toInt_le, h0, hm]
  exact ⟨hy0, hy1⟩

/-- An index in `[-50000, 50000)`, wrapped, passes both bounds tests of the take. -/
theorem wrap_ok (x : BitVec 32) (h1 : -50000 ≤ x.toInt) (h2 : x.toInt < 50000) :
    IntOp.andi
      (IntOp.cmpi .sge (Scalar.select (IntOp.cmpi .slt x 0#32) (IntOp.addi x 50000#32) x) 0#32)
      (IntOp.cmpi .sle (Scalar.select (IntOp.cmpi .slt x 0#32) (IntOp.addi x 50000#32) x) 49999#32) = 1#1 := by
  have h0 : (0#32).toInt = 0 := by decide
  have hk : (50000#32).toInt = 50000 := by decide
  by_cases hneg : x.toInt < 0
  · -- a negative index: the test answers one, the wrapped word is the sum, and the sum does not overflow
    have hb : x.slt 0#32 = true := by rw [BitVec.slt_iff_toInt_lt, h0]; exact hneg
    have hs : Scalar.select (IntOp.cmpi .slt x 0#32) (IntOp.addi x 50000#32) x = x + 50000#32 := by
      show (if BitVec.ofBool (x.slt 0#32) = 1 then x + 50000#32 else x) = _
      rw [hb]; rfl
    have hsum : (x + 50000#32).toInt = x.toInt + 50000 := by
      rw [WordArith.toInt_add_of_bounds _ _ (by rw [hk]; omega) (by rw [hk]; omega), hk]
    rw [hs]
    exact bounds_ok _ (by rw [hsum]; omega) (by rw [hsum]; omega)
  · -- a nonnegative index is kept
    have hb : x.slt 0#32 = false := by
      rw [Bool.eq_false_iff]; intro h; rw [BitVec.slt_iff_toInt_lt, h0] at h; exact hneg h
    have hs : Scalar.select (IntOp.cmpi .slt x 0#32) (IntOp.addi x 50000#32) x = x := by
      show (if BitVec.ofBool (x.slt 0#32) = 1 then x + 50000#32 else x) = _
      rw [hb]; rfl
    rw [hs]
    exact bounds_ok _ (by omega) (by omega)

/-- A left fold by `and` over ones, started from one, is one. -/
private theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 by decide]
    exact foldl_andi_ones f hf l

/-- A reduction by `and` of an array of ones, started from ones, is one at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ i, init i = 1#1) (j : t.Idx) :
    Host.reduce IntOp.andi x init h hu j = 1#1 := by
  rw [Host.reduce_eq_foldl, hinit]
  exact foldl_andi_ones x hx _

/-- The printed predicate's last part answers one only if every endpoint passes both range tests. -/
private theorem part3_range [Cert.Pre_finite_inputs.Facts] {F : FTy → Type} [FloatOps F]
    (a0 : IVec Cert.Pre_finite_inputs.S800000x2 32) (v48 : IVec Cert.Pre_finite_inputs.S_ 1)
    (v49 v50 : FVec F Cert.Pre_finite_inputs.S32 .f32)
    (h : Cert.Pre_finite_inputs.fn_part3 (F := F) a0 v48 v49 v50 ix0 = 1#1) (i : Cert.Pre_finite_inputs.S800000x2.Idx) :
    IntOp.andi (IntOp.cmpi .sge (a0 i) 4294917296#32) (IntOp.cmpi .slt (a0 i) 50000#32) = 1#1 := by
  haveI : Subsingleton Cert.Pre_finite_inputs.S_.Idx := ⟨fun a b => funext fun d => d.elim0⟩
  unfold Cert.Pre_finite_inputs.fn_part3 at h
  -- the result is a conjunction; its second member is the reduction over all endpoints
  have h59 := (IntOp.andi_eq_one.1 h).2
  exact Host.reduce_andi_all _ _ _ _ _ h59 i

/-- THE PRECONDITION DECODED: every endpoint index is in `[-50000, 50000)`, as a signed word. -/
theorem idx_range [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (e : Fin 800000) (k : Fin 2) :
    -50000 ≤ (m ((c.tc : Thread Cert.KernelIdeal.nD Cert.KernelIdeal.τ).loc Cert.KernelIdeal.main_arg0) (ix2 e k)).toInt
      ∧ (m ((c.tc : Thread Cert.KernelIdeal.nD Cert.KernelIdeal.τ).loc Cert.KernelIdeal.main_arg0) (ix2 e k)).toInt < 50000 := by
  have hc := congrFun (h c) ix0
  unfold Cert.Pre_finite_inputs.fn Cert.Pre_finite_inputs.fn_part1 Cert.Pre_finite_inputs.fn_part2 at hc
  have hr := part3_range _ _ _ _ hc (ix2 e k)
  obtain ⟨hge, hlt⟩ := IntOp.andi_eq_one.1 hr
  have hlo : (4294917296#32).toInt = -50000 := by decide
  have hhi : (50000#32).toInt = 50000 := by decide
  constructor
  · have : (4294917296#32).sle (m ((c.tc : Thread Cert.KernelIdeal.nD Cert.KernelIdeal.τ).loc Cert.KernelIdeal.main_arg0) (ix2 e k)) = true :=
      (WordArith.ofBool_eq_one_iff _).1 hge
    rw [BitVec.sle_iff_toInt_le, hlo] at this
    exact this
  · have : (m ((c.tc : Thread Cert.KernelIdeal.nD Cert.KernelIdeal.τ).loc Cert.KernelIdeal.main_arg0) (ix2 e k)).slt 50000#32 = true :=
      (WordArith.ofBool_eq_one_iff _).1 hlt
    rw [BitVec.slt_iff_toInt_lt, hhi] at this
    exact this

end Cert.PreIdx

end
-- ==== Proof.Lits.lean ====
/-
  The two selection matrices as extended reals.

  The host program hands the kernel two dense 32 × 64 tables of 0.0 and 1.0. Listed row by row, entry
  `64 q + c` of the first is 1.0 exactly when `c = 2 q`, and of the second exactly when `c = 2 q + 1`:
  the first spreads 32 values over the even columns, the second over the odd ones. The word of 1.0 denotes
  the real number one and the zero word the real number zero.
-/
import proofs.«426144_j18451179504417_1_alg».proof.KernelIdeal
import Idealize.ShloMosaic.Lib.ValueIdx
import Idealize.ShloMosaic.PureOps.Ideal.Laws

noncomputable section

namespace Cert.KernelIdeal.Lits

open Cert.KernelIdeal
open Idealize.ShloMosaic Idealize.ShloMosaic.ValueIdx

/-- The first table, row by row: a one at column `2 q` of row `q`. -/
theorem lit0_eq (i : Fin 2048) :
    lit0 i = if i.val % 64 = 2 * (i.val / 64) then 0x3F800000#32 else 0x00000000#32 := by
  revert i; decide +kernel

/-- The second table, row by row: a one at column `2 q + 1` of row `q`. -/
theorem lit1_eq (i : Fin 2048) :
    lit1 i = if i.val % 64 = 2 * (i.val / 64) + 1 then 0x3F800000#32 else 0x00000000#32 := by
  revert i; decide +kernel

/-- The word of 1.0 denotes one. -/
theorem ofBits_one_f32 : Ideal.ofBits .f32 0x3F800000#32 = 1 := by
  rw [show (1 : EReal) = ((1 : ℝ) : EReal) by norm_cast]
  simp [Ideal.ofBits, Ideal.ieee, -EReal.coe_mul]; norm_num

/-- The first table at position `64 q + c` with `c < 64`: the quotient and remainder by 64 are `q` and `c`. -/
private theorem lit0_at (i : Fin 2048) (q c : Nat) (hc : c < 64) (hi : i.val = q * 64 + c) :
    lit0 i = if c = 2 * q then 0x3F800000#32 else 0x00000000#32 := by
  have h1 : (q * 64 + c) % 64 = c := by omega
  have h2 : (q * 64 + c) / 64 = q := by omega
  rw [lit0_eq, hi, h1, h2]

/-- The second table at position `64 q + c` with `c < 64`. -/
private theorem lit1_at (i : Fin 2048) (q c : Nat) (hc : c < 64) (hi : i.val = q * 64 + c) :
    lit1 i = if c = 2 * q + 1 then 0x3F800000#32 else 0x00000000#32 := by
  have h1 : (q * 64 + c) % 64 = c := by omega
  have h2 : (q * 64 + c) / 64 = q := by omega
  rw [lit1_eq, hi, h1, h2]

/-- Entry `(q, c)` of the first table as an extended real. -/
theorem evenSel (q : Fin 32) (c : Fin 64) :
    (FloatOps.ofBits (F := Ideal) .f32 (lit0 (S32x64.rowMajor (ix2 q c))) : EReal) = if c.val = 2 * q.val then 1 else 0 := by
  -- entry `(q, c)` sits at row-major position `64 q + c`
  have e := lit0_at (S32x64.rowMajor (ix2 q c)) q.val c.val c.isLt ((Shape.rowMajor_val_two _).trans rfl)
  refine (congrArg (Ideal.ofBits .f32) e).trans ?_
  by_cases h : c.val = 2 * q.val
  · rw [if_pos h, if_pos h]; exact ofBits_one_f32
  · rw [if_neg h, if_neg h]; exact Ideal.ofBits_zero_f32

/-- Entry `(q, c)` of the second table as an extended real. -/
theorem oddSel (q : Fin 32) (c : Fin 64) :
    (FloatOps.ofBits (F := Ideal) .f32 (lit1 (S32x64.rowMajor (ix2 q c))) : EReal) = if c.val = 2 * q.val + 1 then 1 else 0 := by
  have e := lit1_at (S32x64.rowMajor (ix2 q c)) q.val c.val c.isLt ((Shape.rowMajor_val_two _).trans rfl)
  refine (congrArg (Ideal.ofBits .f32) e).trans ?_
  by_cases h : c.val = 2 * q.val + 1
  · rw [if_pos h, if_pos h]; exact ofBits_one_f32
  · rw [if_neg h, if_neg h]; exact Ideal.ofBits_zero_f32

end Cert.KernelIdeal.Lits

end
-- ==== Proof.HostPre.lean ====
/-
  What the precondition gives about the arrays the region finds.

  With every endpoint index in `[-50000, 50000)`, each wrapped start index lies in `[0, 49999]`, so the
  take's bounds test is one at every edge and the take is the bare gather. The angle column at edge `e` is
  the edge's angle, and the two dense tables are the 0/1 selection matrices onto the even and the odd columns.
-/
import proofs.«426144_j18451179504417_1_alg».proof.Proof.HostTake
import proofs.«426144_j18451179504417_1_alg».proof.Proof.HostTakeB
import proofs.«426144_j18451179504417_1_alg».proof.Proof.HostRest
import proofs.«426144_j18451179504417_1_alg».proof.Proof.PreIdx
import proofs.«426144_j18451179504417_1_alg».proof.Proof.Lits
import Idealize.ShloMosaic.Lib.ValueIdx

set_option maxRecDepth 16384

noncomputable section

namespace Cert.KernelIdeal.HostPre

open Cert.KernelIdeal Cert.KernelIdeal.Gen Cert.PreIdx
open Idealize.ShloMosaic Idealize.ShloMosaic.TcCoe Idealize.ShloMosaic.ValueIdx Idealize.SL.Sem Idealize.ShloMosaic.StableHlo

variable (m : (ℓ : Loc nD τ sig) → Buf (Elt Ideal) ℓ)

/-- With every index in range the bounds test passes everywhere: the take is the bare gather. -/
theorem takeRows_eq (x3 : (⟨S50000x64, .f32⟩ : BufTy).Contents (Elt Ideal)) (idx : (⟨S800000, .i32⟩ : BufTy).Contents (Elt Ideal))
    (h : ∀ i, -50000 ≤ (idx i).toInt ∧ (idx i).toInt < 50000) :
    takeRows x3 idx = gathered x3 (wrapIdx idx) := by
  have hmask : ∀ j, inRange (wrapIdx idx) j = 1#1 := fun j => by
    unfold inRange
    exact reduce_andi_ones _ _ _ _ (fun i => wrap_ok _ (h _).1 (h _).2) (fun _ => rfl) j
  funext i
  unfold takeRows
  rw [select_apply]
  have hi : (broadcastInDim S800000x64 ![0] bcast_S800000_S800000x64_0 (inRange (wrapIdx idx))) i = 1#1 := hmask _
  rw [hi, select_one]

/-- Every entry of the endpoints is in range, under the precondition. -/
theorem endpoints_range [Cert.Pre_finite_inputs.Facts] (hpre : Cert.Pre_KernelIdeal m) (c : Dev nD) (j : S800000x2.Idx) :
    -50000 ≤ (m ((c : Thread nD τ).loc main_arg0) j).toInt ∧ (m ((c : Thread nD τ).loc main_arg0) j).toInt < 50000 := by
  rw [eq_ix2 j]
  exact idx_range m hpre c (j 0) (j 1)

/-- Under the precondition the first feature array is the gather along endpoint column 0. -/
theorem V_v4_pre [Cert.Pre_finite_inputs.Facts] (hpre : Cert.Pre_KernelIdeal m) (c : Dev nD) :
    V (F := Ideal) m c main_v4
      = gathered (m ((c : Thread nD τ).loc main_arg3)) (wrapIdx (col0 (m ((c : Thread nD τ).loc main_arg0)))) := by
  rw [V_v4]
  exact takeRows_eq _ _ (fun i => endpoints_range m hpre c _)

/-- Under the precondition the second feature array is the gather along endpoint column 1. -/
theorem V_v5_pre [Cert.Pre_finite_inputs.Facts] (hpre : Cert.Pre_KernelIdeal m) (c : Dev nD) :
    V (F := Ideal) m c main_v5
      = gathered (m ((c : Thread nD τ).loc main_arg3)) (wrapIdx (col1 (m ((c : Thread nD τ).loc main_arg0)))) := by
  rw [V_v5]
  exact takeRows_eq _ _ (fun i => endpoints_range m hpre c _)

/-- The angle column at edge `e` is the edge's angle. -/
theorem theta_apply (c : Dev nD) (e : Fin 800000) :
    (V (F := Ideal) m c main_v6 : Vec Ideal S800000x1 .f32) (ix2 e (0 : Fin 1))
      = (m ((c : Thread nD τ).loc main_arg2) : Vec Ideal S800000 .f32) (ix1 e) := by
  rw [V_v6]
  show broadcastInDim (s := S800000) S800000x1 ![0] bcast_S800000_S800000x1_0
      (m ((c : Thread nD τ).loc main_arg2) : Vec Ideal S800000 .f32) (ix2 e (0 : Fin 1)) = _
  simp only [broadcastInDim]
  congr 1
  funext a
  match a with
  | ⟨0, _⟩ => rw [dif_neg (by show ¬ ((800000 : Nat) = 1); decide)]; rfl

/-- The first dense table is the selection onto the even columns. -/
theorem even_apply (c : Dev nD) (q : Fin 32) (col : Fin 64) :
    ((V (F := Ideal) m c main_cst : Vec Ideal S32x64 .f32) (ix2 q col) : EReal) = if col.val = 2 * q.val then (1 : EReal) else 0 := by
  rw [V_cst]
  exact Lits.evenSel q col

/-- The second dense table is the selection onto the odd columns. -/
theorem odd_apply (c : Dev nD) (q : Fin 32) (col : Fin 64) :
    ((V (F := Ideal) m c main_cst_0 : Vec Ideal S32x64 .f32) (ix2 q col) : EReal) = if col.val = 2 * q.val + 1 then (1 : EReal) else 0 := by
  rw [V_cst_0]
  exact Lits.oddSel q col

end Cert.KernelIdeal.HostPre

end
-- ==== Proof.RefValue.lean ====
/-
  The reference's two results read at one index, on the extended reals.

  The reference gathers two feature rows per edge, lays them beside their entrywise absolute difference
  and the edge's length as 193 inputs, and applies two two-layer perceptrons; the vector result multiplies
  each amplitude by the cosine and by the sine of the edge's angle. Entry `(e, q)` of the scalar result,
  and entry `(e, k, d)` of the vector result, are stated here as the row functions of the specification
  applied to row `e` of the gathered features (which stay opaque: both programs gather alike).
-/
import proofs.«426144_j18451179504417_1_alg».proof.Proof.Gen.ReferenceIdeal.Read
import proofs.«426144_j18451179504417_1_alg».proof.Proof.RowSpec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Read Cert.EdgeRow
open Idealize.ShloMosaic Idealize.ShloMosaic.ValueIdx
open scoped BigOperators

/-- The 193 inputs of edge `e`: its two gathered rows, their absolute difference, its length. -/
def inputs (fi fj : (⟨S800000x64, .f32⟩ : BufTy).Contents (Elt Ideal)) (x1 : (⟨S800000x1, .f32⟩ : BufTy).Contents (Elt Ideal))
    (e : Fin 800000) : Fin 193 → EReal :=
  cat (fun j => fi (ix2 e j)) (fun j => fj (ix2 e j)) (fun j => absE (fi (ix2 e j) - fj (ix2 e j))) (x1 (ix2 e (0 : Fin 1)))

/-- Four pieces laid side by side along the second axis, read at column `j` of row `e`. -/
private theorem cat4_apply (fa fb fd : S800000x64.Idx → EReal) (fl : S800000x1.Idx → EReal)
    (h : Shape.Concatenates (([⟨S800000x64, fa⟩, ⟨S800000x64, fb⟩, ⟨S800000x64, fd⟩, ⟨S800000x1, fl⟩] :
      List ((s : Shape) × (s.Idx → EReal))).map (·.1)) S800000x193 1)
    (e : Fin 800000) (j : Fin 193) :
    concatenate S800000x193 1 [⟨S800000x64, fa⟩, ⟨S800000x64, fb⟩, ⟨S800000x64, fd⟩, ⟨S800000x1, fl⟩] h (ix2 e j)
      = cat (fun j => fa (ix2 e j)) (fun j => fb (ix2 e j)) (fun j => fd (ix2 e j)) (fl (ix2 e (0 : Fin 1))) j := by
  have hj : j.val < 193 := j.isLt
  unfold cat
  by_cases h1 : j.val < 64
  · rw [dif_pos h1]
    refine concatenate_apply_piece (1 : Fin S800000x193.rank) _ h (ix2 e j) 0 (Nat.succ_pos _) S800000x64 fa rfl rfl 0 rfl
      (ix2 e ⟨j.val, h1⟩) ?_ ?_
    · intro b hb
      match b with
      | ⟨0, _⟩ => rfl
      | ⟨1, _⟩ => exact absurd rfl hb
    · show 0 + j.val = j.val
      omega
  · rw [dif_neg h1]
    by_cases h2 : j.val < 128
    · rw [dif_pos h2]
      refine concatenate_apply_piece (1 : Fin S800000x193.rank) _ h (ix2 e j) 1 (Nat.succ_lt_succ (Nat.succ_pos _)) S800000x64 fb rfl rfl 64 rfl
        (ix2 e ⟨j.val - 64, by omega⟩) ?_ ?_
      · intro b hb
        match b with
        | ⟨0, _⟩ => rfl
        | ⟨1, _⟩ => exact absurd rfl hb
      · show 64 + (j.val - 64) = j.val
        omega
    · rw [dif_neg h2]
      by_cases h3 : j.val < 192
      · rw [dif_pos h3]
        refine concatenate_apply_piece (1 : Fin S800000x193.rank) _ h (ix2 e j) 2 (Nat.succ_lt_succ (Nat.succ_lt_succ (Nat.succ_pos _))) S800000x64 fd rfl rfl 128 rfl
          (ix2 e ⟨j.val - 128, by omega⟩) ?_ ?_
        · intro b hb
          match b with
          | ⟨0, _⟩ => rfl
          | ⟨1, _⟩ => exact absurd rfl hb
        · show 128 + (j.val - 128) = j.val
          omega
      · rw [dif_neg h3]
        refine concatenate_apply_piece (1 : Fin S800000x193.rank) _ h (ix2 e j) 3 (Nat.succ_lt_succ (Nat.succ_lt_succ (Nat.succ_lt_succ (Nat.succ_pos _)))) S800000x1 fl rfl rfl 192 rfl
          (ix2 e (0 : Fin 1)) ?_ ?_
        · intro b hb
          match b with
          | ⟨0, _⟩ => rfl
          | ⟨1, _⟩ => exact absurd rfl hb
        · show 192 + 0 = j.val
          omega

/-- The concatenation of the four pieces, at column `j` of row `e`. -/
theorem cat_apply (x0 : (⟨S800000x2, .i32⟩ : BufTy).Contents (Elt Ideal)) (x1 : (⟨S800000x1, .f32⟩ : BufTy).Contents (Elt Ideal))
    (x3 : (⟨S50000x64, .f32⟩ : BufTy).Contents (Elt Ideal)) (e : Fin 800000) (j : Fin 193) :
    val_main_v20 (F := Ideal) x0 x1 x3 (ix2 e j)
      = inputs (val_main_v10 (F := Ideal) x0 x3) (val_main_v17 (F := Ideal) x0 x3) x1 e j := by
  unfold val_main_v20 inputs
  have hd : ∀ c : Fin 64, val_main_v19 (F := Ideal) x0 x3 (ix2 e c)
      = absE (val_main_v10 (F := Ideal) x0 x3 (ix2 e c) - val_main_v17 (F := Ideal) x0 x3 (ix2 e c)) := fun c => by
    rw [val_main_v19_apply, val_main_v18_apply, Ideal.hostAbsf_def, Ideal.absf_def, Ideal.subf_def]
    rfl
  rw [cat4_apply]
  simp only [hd]

/-- Two single-column pieces laid side by side, read at column `d` of row `e`. -/
private theorem cat2_apply (fc fs : S800000x1.Idx → EReal)
    (h : Shape.Concatenates (([⟨S800000x1, fc⟩, ⟨S800000x1, fs⟩] : List ((s : Shape) × (s.Idx → EReal))).map (·.1)) S800000x2 1)
    (e : Fin 800000) (d : Fin 2) :
    concatenate S800000x2 1 [⟨S800000x1, fc⟩, ⟨S800000x1, fs⟩] h (ix2 e d)
      = if d.val = 0 then fc (ix2 e (0 : Fin 1)) else fs (ix2 e (0 : Fin 1)) := by
  have hd : d.val < 2 := d.isLt
  by_cases h0 : d.val = 0
  · rw [if_pos h0]
    refine concatenate_apply_piece (1 : Fin S800000x2.rank) _ h (ix2 e d) 0 (Nat.succ_pos _) S800000x1 fc rfl rfl 0 rfl
      (ix2 e (0 : Fin 1)) ?_ ?_
    · intro b hb
      match b with
      | ⟨0, _⟩ => rfl
      | ⟨1, _⟩ => exact absurd rfl hb
    · show 0 + 0 = d.val
      omega
  · rw [if_neg h0]
    refine concatenate_apply_piece (1 : Fin S800000x2.rank) _ h (ix2 e d) 1 (Nat.succ_lt_succ (Nat.succ_pos _)) S800000x1 fs rfl rfl 1 rfl
      (ix2 e (0 : Fin 1)) ?_ ?_
    · intro b hb
      match b with
      | ⟨0, _⟩ => rfl
      | ⟨1, _⟩ => exact absurd rfl hb
    · show 1 + 0 = d.val
      omega

/-- The direction pair of edge `e`: cosine then sine of its angle. -/
theorem dir_apply (x2 : (⟨S800000, .f32⟩ : BufTy).Contents (Elt Ideal)) (e : Fin 800000) (d : Fin 2) :
    val_main_v34 (F := Ideal) x2 (ix2 e d) = if d.val = 0 then Ideal.cos (x2 (ix1 e)) else Ideal.sin (x2 (ix1 e)) := by
  unfold val_main_v34
  rw [cat2_apply, val_main_v32_apply, val_main_v33_apply, val_main_v30_apply, val_main_v31_apply,
    Ideal.hostUnary_cos_def, Ideal.hostUnary_sin_def]
  have ec : idx_main_v32 (ix2 e (0 : Fin 1)) = ix1 e := funext fun a => Fin.ext (by match a with | ⟨0, _⟩ => rfl)
  have es : idx_main_v33 (ix2 e (0 : Fin 1)) = ix1 e := funext fun a => Fin.ext (by match a with | ⟨0, _⟩ => rfl)
  rw [ec, es]

/-- A hidden unit of the first perceptron, at unit `k` of row `e`. -/
private theorem hidA_apply (x0 : (⟨S800000x2, .i32⟩ : BufTy).Contents (Elt Ideal)) (x1 : (⟨S800000x1, .f32⟩ : BufTy).Contents (Elt Ideal))
    (x3 : (⟨S50000x64, .f32⟩ : BufTy).Contents (Elt Ideal)) (x4 : (⟨S193x128, .f32⟩ : BufTy).Contents (Elt Ideal))
    (x5 : (⟨S128, .f32⟩ : BufTy).Contents (Elt Ideal)) (e : Fin 800000) (k : Fin 128) :
    val_main_v25 (F := Ideal) x0 x1 x3 x4 x5 (ix2 e k)
      = hid (inputs (val_main_v10 (F := Ideal) x0 x3) (val_main_v17 (F := Ideal) x0 x3) x1 e)
          (fun j => x4 (ix2 j k)) (x5 (ix1 k)) := by
  rw [val_main_v25_apply, val_main_v24_apply, val_main_v21_apply, val_main_v23_apply, val_main_v22_apply,
    val_main_call0_v0_apply, val_main_call0_cst_apply, Ideal.maximumf_def, Ideal.addf_def, Ideal.ofBits_def,
    Ideal.ofBits_zero_f32]
  unfold hid
  have el : ∀ j : Fin 193, lidx_main_v21 (ix2 e k) j = ix2 e j := fun j => funext fun a => Fin.ext (by
    match a with | ⟨0, _⟩ => rfl | ⟨1, _⟩ => rfl)
  have er : ∀ j : Fin 193, ridx_main_v21 (ix2 e k) j = ix2 j k := fun j => funext fun a => Fin.ext (by
    match a with | ⟨0, _⟩ => rfl | ⟨1, _⟩ => rfl)
  have eb : idx_main_v22 (idx_main_v23 (ix2 e k)) = ix1 k := funext fun a => Fin.ext (by
    match a with | ⟨0, _⟩ => rfl)
  rw [eb]
  refine congrArg (fun s => max (s + x5 (ix1 k)) 0) (Finset.sum_congr rfl fun j _ => ?_)
  rw [el, er, cat_apply]

/-- Entry `(e, q)` of the scalar result. -/
theorem h0_apply (x0 : (⟨S800000x2, .i32⟩ : BufTy).Contents (Elt Ideal)) (x1 : (⟨S800000x1, .f32⟩ : BufTy).Contents (Elt Ideal))
    (x3 : (⟨S50000x64, .f32⟩ : BufTy).Contents (Elt Ideal)) (x4 : (⟨S193x128, .f32⟩ : BufTy).Contents (Elt Ideal))
    (x5 : (⟨S128, .f32⟩ : BufTy).Contents (Elt Ideal)) (x6 : (⟨S128x64, .f32⟩ : BufTy).Contents (Elt Ideal))
    (x7 : (⟨S64, .f32⟩ : BufTy).Contents (Elt Ideal)) (e : Fin 800000) (q : Fin 64) :
    val_main_v29 (F := Ideal) x0 x1 x3 x4 x5 x6 x7 (ix2 e q)
      = dense (fun k => hid (inputs (val_main_v10 (F := Ideal) x0 x3) (val_main_v17 (F := Ideal) x0 x3) x1 e)
            (fun j => x4 (ix2 j k)) (x5 (ix1 k)))
          (fun k => x6 (ix2 k q)) (x7 (ix1 q)) := by
  rw [val_main_v29_apply, val_main_v26_apply, val_main_v28_apply, val_main_v27_apply, Ideal.addf_def]
  unfold dense
  have el : ∀ k : Fin 128, lidx_main_v26 (ix2 e q) k = ix2 e k := fun k => funext fun a => Fin.ext (by
    match a with | ⟨0, _⟩ => rfl | ⟨1, _⟩ => rfl)
  have er : ∀ k : Fin 128, ridx_main_v26 (ix2 e q) k = ix2 k q := fun k => funext fun a => Fin.ext (by
    match a with | ⟨0, _⟩ => rfl | ⟨1, _⟩ => rfl)
  have eb : idx_main_v27 (idx_main_v28 (ix2 e q)) = ix1 q := funext fun a => Fin.ext (by
    match a with | ⟨0, _⟩ => rfl)
  rw [eb]
  refine congrArg (fun s => s + x7 (ix1 q)) (Finset.sum_congr rfl fun k _ => ?_)
  rw [el, er, hidA_apply]

/-- A hidden unit of the second perceptron, at unit `u` of row `e`. -/
private theorem hidB_apply (x0 : (⟨S800000x2, .i32⟩ : BufTy).Contents (Elt Ideal)) (x1 : (⟨S800000x1, .f32⟩ : BufTy).Contents (Elt Ideal))
    (x3 : (⟨S50000x64, .f32⟩ : BufTy).Contents (Elt Ideal)) (x8 : (⟨S193x128, .f32⟩ : BufTy).Contents (Elt Ideal))
    (x9 : (⟨S128, .f32⟩ : BufTy).Contents (Elt Ideal)) (e : Fin 800000) (u : Fin 128) :
    val_main_v39 (F := Ideal) x0 x1 x3 x8 x9 (ix2 e u)
      = hid (inputs (val_main_v10 (F := Ideal) x0 x3) (val_main_v17 (F := Ideal) x0 x3) x1 e)
          (fun j => x8 (ix2 j u)) (x9 (ix1 u)) := by
  rw [val_main_v39_apply, val_main_v38_apply, val_main_v35_apply, val_main_v37_apply, val_main_v36_apply,
    val_main_call1_v0_apply, val_main_call1_cst_apply, Ideal.maximumf_def, Ideal.addf_def, Ideal.ofBits_def,
    Ideal.ofBits_zero_f32]
  unfold hid
  have el : ∀ j : Fin 193, lidx_main_v35 (ix2 e u) j = ix2 e j := fun j => funext fun a => Fin.ext (by
    match a with | ⟨0, _⟩ => rfl | ⟨1, _⟩ => rfl)
  have er : ∀ j : Fin 193, ridx_main_v35 (ix2 e u) j = ix2 j u := fun j => funext fun a => Fin.ext (by
    match a with | ⟨0, _⟩ => rfl | ⟨1, _⟩ => rfl)
  have eb : idx_main_v36 (idx_main_v37 (ix2 e u)) = ix1 u := funext fun a => Fin.ext (by
    match a with | ⟨0, _⟩ => rfl)
  rw [eb]
  refine congrArg (fun s => max (s + x9 (ix1 u)) 0) (Finset.sum_congr rfl fun j _ => ?_)
  rw [el, er, cat_apply]

/-- The amplitude of channel `k` of row `e`. -/
private theorem amp_apply (x0 : (⟨S800000x2, .i32⟩ : BufTy).Contents (Elt Ideal)) (x1 : (⟨S800000x1, .f32⟩ : BufTy).Contents (Elt Ideal))
    (x3 : (⟨S50000x64, .f32⟩ : BufTy).Contents (Elt Ideal)) (x8 : (⟨S193x128, .f32⟩ : BufTy).Contents (Elt Ideal))
    (x9 : (⟨S128, .f32⟩ : BufTy).Contents (Elt Ideal)) (x10 : (⟨S128x32, .f32⟩ : BufTy).Contents (Elt Ideal))
    (x11 : (⟨S32, .f32⟩ : BufTy).Contents (Elt Ideal)) (e : Fin 800000) (k : Fin 32) :
    val_main_v43 (F := Ideal) x0 x1 x3 x8 x9 x10 x11 (ix2 e k)
      = dense (fun u => hid (inputs (val_main_v10 (F := Ideal) x0 x3) (val_main_v17 (F := Ideal) x0 x3) x1 e)
            (fun j => x8 (ix2 j u)) (x9 (ix1 u)))
          (fun u => x10 (ix2 u k)) (x11 (ix1 k)) := by
  rw [val_main_v43_apply, val_main_v40_apply, val_main_v42_apply, val_main_v41_apply, Ideal.addf_def]
  unfold dense
  have el : ∀ u : Fin 128, lidx_main_v40 (ix2 e k) u = ix2 e u := fun u => funext fun a => Fin.ext (by
    match a with | ⟨0, _⟩ => rfl | ⟨1, _⟩ => rfl)
  have er : ∀ u : Fin 128, ridx_main_v40 (ix2 e k) u = ix2 u k := fun u => funext fun a => Fin.ext (by
    match a with | ⟨0, _⟩ => rfl | ⟨1, _⟩ => rfl)
  have eb : idx_main_v41 (idx_main_v42 (ix2 e k)) = ix1 k := funext fun a => Fin.ext (by
    match a with | ⟨0, _⟩ => rfl)
  rw [eb]
  refine congrArg (fun s => s + x11 (ix1 k)) (Finset.sum_congr rfl fun u _ => ?_)
  rw [el, er, hidB_apply]

/-- Entry `(e, k, d)` of the vector result. -/
theorem v0_apply (x0 : (⟨S800000x2, .i32⟩ : BufTy).Contents (Elt Ideal)) (x1 : (⟨S800000x1, .f32⟩ : BufTy).Contents (Elt Ideal))
    (x2 : (⟨S800000, .f32⟩ : BufTy).Contents (Elt Ideal))
    (x3 : (⟨S50000x64, .f32⟩ : BufTy).Contents (Elt Ideal)) (x8 : (⟨S193x128, .f32⟩ : BufTy).Contents (Elt Ideal))
    (x9 : (⟨S128, .f32⟩ : BufTy).Contents (Elt Ideal)) (x10 : (⟨S128x32, .f32⟩ : BufTy).Contents (Elt Ideal))
    (x11 : (⟨S32, .f32⟩ : BufTy).Contents (Elt Ideal)) (e : Fin 800000) (k : Fin 32) (d : Fin 2) :
    val_main_v48 (F := Ideal) x0 x1 x2 x3 x8 x9 x10 x11 (ix3 e k d)
      = dense (fun u => hid (inputs (val_main_v10 (F := Ideal) x0 x3) (val_main_v17 (F := Ideal) x0 x3) x1 e)
            (fun j => x8 (ix2 j u)) (x9 (ix1 u)))
          (fun u => x10 (ix2 u k)) (x11 (ix1 k))
        * (if d.val = 0 then Ideal.cos (x2 (ix1 e)) else Ideal.sin (x2 (ix1 e))) := by
  rw [val_main_v48_apply, val_main_v46_apply, val_main_v44_apply, val_main_v47_apply, val_main_v45_apply,
    Ideal.mulf_def]
  have ea : idx_main_v44 (idx_main_v46 (ix3 e k d)) = ix2 e k := funext fun a => Fin.ext (by
    match a with | ⟨0, _⟩ => rfl | ⟨1, _⟩ => rfl)
  have ed : idx_main_v45 (idx_main_v47 (ix3 e k d)) = ix2 e d := funext fun a => Fin.ext (by
    match a with | ⟨0, _⟩ => rfl | ⟨1, _⟩ => rfl)
  rw [ea, ed, amp_apply, dir_apply]

end Cert.ReferenceIdeal.RefValue

end
-- ==== Proof.Bridge.lean ====
/-
  The two programs' results are one function of the arguments.

  Both programs wrap and gather the endpoint rows alike; under the precondition the kernel's bounds mask is
  all ones, so its two feature arrays are the reference's gathers. Row by row the scalar result is then the
  same second layer over the same 193 inputs (the kernel's grouping of the first layer's products is a
  regrouping of one sum), and the kernel's interleaved output, through its two 0/1 selection matrices and the
  reshape, is the reference's amplitude times the cosine (even entries) or the sine (odd entries).
-/
import proofs.«426144_j18451179504417_1_alg».proof.Proof.KValue
import proofs.«426144_j18451179504417_1_alg».proof.Proof.KTail
import proofs.«426144_j18451179504417_1_alg».proof.Proof.HostPre
import proofs.«426144_j18451179504417_1_alg».proof.Proof.RefValue

set_option maxRecDepth 16384

noncomputable section

namespace Cert.Bridge

open Idealize.ShloMosaic Idealize.ShloMosaic.TcCoe Idealize.ShloMosaic.ValueIdx Idealize.SL.Sem Cert.EdgeRow
open scoped BigOperators

/-- The kernel program's gather along endpoint column 0 is the reference's, term for term. -/
theorem gather0_same (x0 : (⟨Cert.KernelIdeal.S800000x2, .i32⟩ : BufTy).Contents (Elt Ideal))
    (x3 : (⟨Cert.KernelIdeal.S50000x64, .f32⟩ : BufTy).Contents (Elt Ideal)) :
    Cert.KernelIdeal.HostPre.gathered x3 (Cert.KernelIdeal.HostPre.wrapIdx (Cert.KernelIdeal.HostPre.col0 x0))
      = Cert.ReferenceIdeal.Read.val_main_v10 (F := Ideal) x0 x3 := by
  unfold Cert.KernelIdeal.HostPre.gathered Cert.KernelIdeal.HostPre.wrapIdx Cert.KernelIdeal.HostPre.col0
    Cert.ReferenceIdeal.Read.val_main_v10 Cert.ReferenceIdeal.Read.val_main_v9 Cert.ReferenceIdeal.Read.val_main_v8
    Cert.ReferenceIdeal.Read.val_main_v7 Cert.ReferenceIdeal.Read.val_main_v6 Cert.ReferenceIdeal.Read.val_main_v5
    Cert.ReferenceIdeal.Read.val_main_v4 Cert.ReferenceIdeal.Read.val_main_v1 Cert.ReferenceIdeal.Read.val_main_v0
    Cert.ReferenceIdeal.Read.val_main_c Cert.ReferenceIdeal.Read.val_main_c_0
  rfl

/-- The same along endpoint column 1. -/
theorem gather1_same (x0 : (⟨Cert.KernelIdeal.S800000x2, .i32⟩ : BufTy).Contents (Elt Ideal))
    (x3 : (⟨Cert.KernelIdeal.S50000x64, .f32⟩ : BufTy).Contents (Elt Ideal)) :
    Cert.KernelIdeal.HostPre.gathered x3 (Cert.KernelIdeal.HostPre.wrapIdx (Cert.KernelIdeal.HostPre.col1 x0))
      = Cert.ReferenceIdeal.Read.val_main_v17 (F := Ideal) x0 x3 := by
  unfold Cert.KernelIdeal.HostPre.gathered Cert.KernelIdeal.HostPre.wrapIdx Cert.KernelIdeal.HostPre.col1
    Cert.ReferenceIdeal.Read.val_main_v17 Cert.ReferenceIdeal.Read.val_main_v16 Cert.ReferenceIdeal.Read.val_main_v15
    Cert.ReferenceIdeal.Read.val_main_v14 Cert.ReferenceIdeal.Read.val_main_v13 Cert.ReferenceIdeal.Read.val_main_v12
    Cert.ReferenceIdeal.Read.val_main_v11 Cert.ReferenceIdeal.Read.val_main_v3 Cert.ReferenceIdeal.Read.val_main_v2
    Cert.ReferenceIdeal.Read.val_main_c_1 Cert.ReferenceIdeal.Read.val_main_c_2
  rfl

section Kernel

open Cert.KernelIdeal Cert.KernelIdeal.Gen Cert.KernelIdeal.KValue Cert.KernelIdeal.HostPre

variable (m : (ℓ : Loc nD τ sig) → Buf (Elt Ideal) ℓ)

/-- Under the precondition, edge `e`'s 193 inputs as the kernel finds them are the reference's. -/
theorem rowInV_eq [Cert.Pre_finite_inputs.Facts] (hpre : Cert.Pre_KernelIdeal m) (c : Dev nD) (e : Fin 800000) :
    rowInV m c e = Cert.ReferenceIdeal.RefValue.inputs
      (Cert.ReferenceIdeal.Read.val_main_v10 (F := Ideal) (m ((c : Thread nD τ).loc main_arg0)) (m ((c : Thread nD τ).loc main_arg3)))
      (Cert.ReferenceIdeal.Read.val_main_v17 (F := Ideal) (m ((c : Thread nD τ).loc main_arg0)) (m ((c : Thread nD τ).loc main_arg3)))
      (m ((c : Thread nD τ).loc main_arg1)) e := by
  unfold rowInV Cert.ReferenceIdeal.RefValue.inputs
  simp only [aFi, aFj, aLen]
  rw [V_v4_pre m hpre c, V_v5_pre m hpre c, V_main_arg1 m c, gather0_same, gather1_same]

/-- THE KERNEL'S RUN, READ: every weakly fair execution terminates with the scalar result at the first output
    array, the vector result at the reshape of the second, and the arguments unchanged. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v7_0) = (dats (F := Ideal) m 0 c).arrAt 14 cfg0.N
      ∧ r.2.mem ((c.tc : Thread nD τ).loc main_v8) = Pipeline.afterTail₀ cfgs (dats (F := Ideal) m) 0 (V0 m) [hostOps1] c main_v8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c).1 14,
      (h c).2 main_v8 (Pipeline.mem_restRefs_of main_v8 (by decide) (by decide)),
      (((h c).2 main_arg0 (Pipeline.mem_restRefs_of main_arg0 (by decide) (by decide))).trans (W_main_arg0 m (dats m) c)),
      ((h c).1 2).trans (((dats m 0 c).arrAt_in 2 rfl _).trans ((A_eq m c 2).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c))),
      ((h c).1 11).trans (((dats m 0 c).arrAt_in 11 rfl _).trans ((A_eq m c 11).trans (V_main_arg11 m c)))⟩)
    (run_main m ρ)

end Kernel

/-! ## The reference's results are the kernel's -/

section Both

open Cert.KernelIdeal.KValue Cert.KernelIdeal.HostPre

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The two memories agree on the twelve arguments (the algebraic claim's hypothesis, on one device). -/
def Agree (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)

/-- THE SCALAR RESULT: the reference's term is the kernel's first output array. -/
theorem h0_bridge [Cert.Pre_finite_inputs.Facts] (hpre : Cert.Pre_KernelIdeal m) (c : Dev Cert.KernelIdeal.nD) (hagree : Agree m m' c) :
    (Cert.ReferenceIdeal.Value.res_main_v29 (F := Ideal) m' c : Vec Ideal ⟨2, ![800000, 64]⟩ .f32)
      = ((Cert.KernelIdeal.Gen.dats (F := Ideal) m 0 c).arrAt 14 Cert.KernelIdeal.cfg0.N : Vec Ideal ⟨2, ![800000, 64]⟩ .f32) := by
  obtain ⟨h0, h1, h2, h3, h4, h5, h6, h7, h8, h9, h10, h11⟩ := hagree
  funext i
  obtain ⟨e, q, rfl⟩ : ∃ (e : Fin 800000) (q : Fin 64), i = ix2 e q := ⟨i 0, i 1, eq_ix2 i⟩
  rw [Cert.ReferenceIdeal.Read.val_main_v29_eq m' c, Cert.ReferenceIdeal.RefValue.h0_apply]
  refine Eq.trans ?_ (arr14_apply m c e q).symm
  rw [rowInV_eq m hpre c e, h0, h1, h3, h4, h5, h6, h7]
  simp only [aW1s, aB1s, aW2s, aB2s]
  rw [Cert.KernelIdeal.Gen.V_main_arg4 m c, Cert.KernelIdeal.Gen.V_main_arg5 m c, Cert.KernelIdeal.Gen.V_main_arg6 m c,
    Cert.KernelIdeal.Gen.V_main_arg7 m c]

/-- Under the precondition, an amplitude as the kernel finds its arrays is the reference's vector perceptron. -/
theorem ampV_eq [Cert.Pre_finite_inputs.Facts] (hpre : Cert.Pre_KernelIdeal m) (c : Dev Cert.KernelIdeal.nD) (e : Fin 800000) (k : Fin 32) :
    ampV m c e k = dense (fun u => hid (Cert.ReferenceIdeal.RefValue.inputs
          (Cert.ReferenceIdeal.Read.val_main_v10 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)))
          (Cert.ReferenceIdeal.Read.val_main_v17 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)))
          (m ((c.tc : Thread Cert.KernelIdeal.nD Cert.KernelIdeal.τ).loc Cert.KernelIdeal.main_arg1)) e)
        (fun j => ((m ((c.tc : Thread Cert.KernelIdeal.nD Cert.KernelIdeal.τ).loc Cert.KernelIdeal.main_arg8)) : Vec Ideal ⟨2, ![193, 128]⟩ .f32) (ix2 j u)) (((m ((c.tc : Thread Cert.KernelIdeal.nD Cert.KernelIdeal.τ).loc Cert.KernelIdeal.main_arg9)) : Vec Ideal ⟨1, ![128]⟩ .f32) (ix1 u)))
      (fun u => ((m ((c.tc : Thread Cert.KernelIdeal.nD Cert.KernelIdeal.τ).loc Cert.KernelIdeal.main_arg10)) : Vec Ideal ⟨2, ![128, 32]⟩ .f32) (ix2 u k)) (((m ((c.tc : Thread Cert.KernelIdeal.nD Cert.KernelIdeal.τ).loc Cert.KernelIdeal.main_arg11)) : Vec Ideal ⟨1, ![32]⟩ .f32) (ix1 k)) := by
  unfold ampV
  rw [rowInV_eq m hpre c e]
  simp only [aW1v, aB1v, aW2v, aB2v]
  rw [Cert.KernelIdeal.Gen.V_main_arg8 m c, Cert.KernelIdeal.Gen.V_main_arg9 m c, Cert.KernelIdeal.Gen.V_main_arg10 m c,
    Cert.KernelIdeal.Gen.V_main_arg11 m c]

/-- THE VECTOR RESULT: the reference's term is the reshape of the kernel's second output array. -/
theorem v0_bridge [Cert.Pre_finite_inputs.Facts] (hpre : Cert.Pre_KernelIdeal m) (c : Dev Cert.KernelIdeal.nD) (hagree : Agree m m' c) :
    (Cert.ReferenceIdeal.Value.res_main_v48 (F := Ideal) m' c : Vec Ideal ⟨3, ![800000, 32, 2]⟩ .f32)
      = (Pipeline.afterTail₀ Cert.KernelIdeal.cfgs (Cert.KernelIdeal.Gen.dats (F := Ideal) m) 0 (Cert.KernelIdeal.Gen.V0 m)
          [Cert.KernelIdeal.Gen.hostOps1] c Cert.KernelIdeal.main_v8 : Vec Ideal ⟨3, ![800000, 32, 2]⟩ .f32) := by
  obtain ⟨h0, h1, h2, h3, h4, h5, h6, h7, h8, h9, h10, h11⟩ := hagree
  funext i
  obtain ⟨e, k, d, rfl⟩ : ∃ (e : Fin 800000) (k : Fin 32) (d : Fin 2), i = ix3 e k d := ⟨i 0, i 1, i 2, eq_ix3 i⟩
  rw [Cert.ReferenceIdeal.Read.val_main_v48_eq m' c, Cert.ReferenceIdeal.RefValue.v0_apply]
  refine Eq.trans ?_ (Cert.KernelIdeal.Tail.tail_v8_apply m c e k d).symm
  refine Eq.trans ?_ (arr15_apply m c e _).symm
  have hI := interleave (fun q => ampV m c e q * Ideal.cos (aTheta m c (ix2 e (0 : Fin 1))))
      (fun q => ampV m c e q * Ideal.sin (aTheta m c (ix2 e (0 : Fin 1))))
      (fun q col => aEven m c (ix2 q col)) (fun q col => aOdd m c (ix2 q col))
      (fun q col => even_apply m c q col) (fun q col => odd_apply m c q col) k d (⟨2 * k.val + d.val, by omega⟩ : Fin 64) rfl
  refine Eq.trans ?_ hI.symm
  have hθ : aTheta m c (ix2 e (0 : Fin 1)) = ((m ((c.tc : Thread Cert.KernelIdeal.nD Cert.KernelIdeal.τ).loc Cert.KernelIdeal.main_arg2)) : Vec Ideal ⟨1, ![800000]⟩ .f32) (ix1 e) := theta_apply m c e
  rw [ampV_eq m hpre c e k, hθ, h0, h1, h2, h3, h8, h9, h10, h11]
  by_cases hd : d.val = 0
  · rw [if_pos hd, if_pos hd]
  · rw [if_neg hd, if_neg hd]

end Both

end Cert.Bridge

end
-- ==== Proof.lean ====
/-
  An edge encoder of a graph network, certified equal to its reference over the extended reals.

  For each of 800000 edges the program gathers the feature rows of the edge's two endpoints out of a table of
  50000 rows, forms their entrywise absolute difference, and feeds the 193 numbers (two rows of 64, the
  difference, the edge's length) to two two-layer perceptrons; the scalar result is the first perceptron's
  64 outputs, the vector result the second's 32 amplitudes, each times the cosine and the sine of the edge's
  angle. The kernel computes a first layer as three 64-wide products plus one outer product, and lays the
  vector result out through two 0/1 selection matrices; the reference concatenates, multiplies once, and
  broadcasts. Both are the same extended reals because addition is associative and commutative, and because
  `x · 0 = 0`, `x · 1 = x` and `x + 0 = x` hold for every extended real: no finiteness is used.

  The one place the two programs differ is an endpoint index outside the table: the kernel's take fills such
  a row with a NaN pattern where the reference's gather clamps. The precondition states the indices' evident
  domain, `-50000 ≤ endpoints < 50000` (an index names a row counted from the top, or, when negative, from the bottom); inside it the
  take's bounds mask is all ones and both programs gather the same rows.

  The frames are the generated frame certificates (the reference's is its generated run with the results
  dropped); the ideal pass rewrote nothing, so there is nothing to preserve.
-/
import proofs.«426144_j18451179504417_1_alg».proof.Defs
import proofs.«426144_j18451179504417_1_alg».proof.Proof.Gen.Kernel
import proofs.«426144_j18451179504417_1_alg».proof.Proof.Gen.Kernel.Skeleton
import proofs.«426144_j18451179504417_1_alg».proof.Proof.Gen.Kernel.Launch
import proofs.«426144_j18451179504417_1_alg».proof.Proof.Gen.Kernel.Points
import proofs.«426144_j18451179504417_1_alg».proof.Proof.Gen.Kernel.Frame
import proofs.«426144_j18451179504417_1_alg».proof.Proof.Gen.KernelIdeal
import proofs.«426144_j18451179504417_1_alg».proof.Proof.Gen.KernelIdeal.Skeleton
import proofs.«426144_j18451179504417_1_alg».proof.Proof.Gen.KernelIdeal.Launch
import proofs.«426144_j18451179504417_1_alg».proof.Proof.Gen.KernelIdeal.Points
import proofs.«426144_j18451179504417_1_alg».proof.Proof.Gen.KernelIdeal.Frame
import proofs.«426144_j18451179504417_1_alg».proof.Proof.Gen.ReferenceIdeal
import proofs.«426144_j18451179504417_1_alg».proof.Proof.Gen.Pre_finite_inputs
import proofs.«426144_j18451179504417_1_alg».proof.Proof.Gen.ReferenceIdeal.Run
import proofs.«426144_j18451179504417_1_alg».proof.Proof.Gen.ReferenceIdeal.Read
import proofs.«426144_j18451179504417_1_alg».proof.Proof.Bridge
import Idealize.ShloMosaic.Adequacy
import Idealize.ShloMosaic.Init

noncomputable section

namespace Cert.Proof

open Idealize.ShloMosaic Idealize.SL.Sem

/-- The word-level kernel runs, faults nowhere and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories agreeing on the arguments, with the endpoint indices in range, both programs end with the
    same two results: the kernel's output arrays (the second reshaped), which the reference's terms equal. -/
theorem algebraic : Cert.algebraic_KernelIdeal_ReferenceIdeal := by
  intro m ρ m' ρ' hpre hagree
  refine ⟨fun c => (Cert.KernelIdeal.Gen.dats (F := Ideal) m 0 c).arrAt 14 Cert.KernelIdeal.cfg0.N,
    fun c => Pipeline.afterTail₀ Cert.KernelIdeal.cfgs (Cert.KernelIdeal.Gen.dats (F := Ideal) m) 0 (Cert.KernelIdeal.Gen.V0 m)
      [Cert.KernelIdeal.Gen.hostOps1] c Cert.KernelIdeal.main_v8,
    Cert.Bridge.kernel_run m ρ, ?_⟩
  exact (θ_run Cert.ReferenceIdeal.defs _ _).mono (fun _ h c =>
      ⟨(h c).1.trans (Cert.Bridge.h0_bridge m m' hpre c (hagree c)),
       (h c).2.1.trans (Cert.Bridge.v0_bridge m m' hpre c (hagree c)),
       (h c).2.2⟩)
    (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
